-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S2048x512 : Shape := ⟨2, ![2048, 512]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S1 : Shape := ⟨1, ![1]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S2048 .f32) (main_arg5 : FVec F S512x2048 .f32) (main_arg6 : FVec F S512 .f32) (main_arg7 : FVec F S1 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_v33

def fn {F : FTy → Type} [FloatOps F] (main_arg0 : FVec F S32768x512 .f32) (main_arg1 : FVec F S2048x512 .f32) (main_arg2 : FVec F S2048 .f32) (main_arg3 : FVec F S2048x2048 .f32) (main_arg4 : FVec F S2048 .f32) (main_arg5 : FVec F S512x2048 .f32) (main_arg6 : FVec F S512 .f32) (main_arg7 : FVec F S1 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_v13 main_v16
-- ==== Kernel.lean ====
abbrev S32768x512 : Shape := ⟨2, ![32768, 512]⟩
abbrev S2048x512 : Shape := ⟨2, ![2048, 512]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S1 : Shape := ⟨1, ![1]⟩
abbrev S_ : Shape := ⟨0, ![]⟩
abbrev S1x2048 : Shape := ⟨2, ![1, 2048]⟩
abbrev S1x1 : Shape := ⟨2, ![1, 1]⟩
abbrev S32768x2048 : Shape := ⟨2, ![32768, 2048]⟩
abbrev S1024x512 : Shape := ⟨2, ![1024, 512]⟩
abbrev S1024x2048 : Shape := ⟨2, ![1024, 2048]⟩
abbrev S1024 : Shape := ⟨1, ![1024]⟩
abbrev S1024x1 : Shape := ⟨2, ![1024, 1]⟩
abbrev S512x1 : Shape := ⟨2, ![512, 1]⟩
abbrev S1x512 : Shape := ⟨2, ![1, 512]⟩

abbrev nBuf : Space → Nat
  | .hbm => 67
  | .vmem => 23
  | .smem => 0
  | _ => 0

abbrev bufTy : (tb : Table) → Fin (tcTables nBuf tb) → BufTy
  | .hbm, ⟨0, _⟩ => ⟨S32768x512, .f32⟩
  | .hbm, ⟨1, _⟩ => ⟨S2048x512, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S512x2048, .f32⟩
  | .hbm, ⟨6, _⟩ => ⟨S512, .f32⟩
  | .hbm, ⟨7, _⟩ => ⟨S1, .f32⟩
  | .hbm, ⟨8, _⟩ => ⟨S2048x512, .f32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S2048x512, .f32⟩
  | .hbm, ⟨16, _⟩ => ⟨S2048x512, .i1⟩
  | .hbm, ⟨17, _⟩ => ⟨S_, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S512x2048, .f32⟩
  | .hbm, ⟨23, _⟩ => ⟨S512x2048, .bf16⟩
  | .hbm, ⟨24, _⟩ => ⟨S1x2048, .f32⟩
  | .hbm, ⟨25, _⟩ => ⟨S1x2048, .f32⟩
  | .hbm, ⟨26, _⟩ => ⟨S1x1, .f32⟩
  | .hbm, ⟨27, _⟩ => ⟨S32768x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048x2048, .f32⟩
  | .hbm, ⟨36, _⟩ => ⟨S2048x2048, .i1⟩
  | .hbm, ⟨37, _⟩ => ⟨S_, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .bf16⟩
  | .hbm, ⟨44, _⟩ => ⟨S1x2048, .f32⟩
  | .hbm, ⟨45, _⟩ => ⟨S1x2048, .f32⟩
  | .hbm, ⟨46, _⟩ => ⟨S1x1, .f32⟩
  | .hbm, ⟨47, _⟩ => ⟨S32768x2048, .f32⟩
  | .hbm, ⟨48, _⟩ => ⟨S512x2048, .f32⟩
  | .hbm, ⟨49, _⟩ => ⟨S_, .f32⟩
  | .hbm, ⟨50, _⟩ => ⟨S512, .f32⟩
  | .hbm, ⟨51, _⟩ => ⟨S_, .f32⟩
  | .hbm, ⟨52, _⟩ => ⟨S512, .f32⟩
  | .hbm, ⟨53, _⟩ => ⟨S512, .f32⟩
  | .hbm, ⟨54, _⟩ => ⟨S_, .f32⟩
  | .hbm, ⟨55, _⟩ => ⟨S512x2048, .f32⟩
  | .hbm, ⟨56, _⟩ => ⟨S512x2048, .i1⟩
  | .hbm, ⟨57, _⟩ => ⟨S_, .f32⟩
  | .hbm, ⟨58, _⟩ => ⟨S_, .f32⟩
  | .hbm, ⟨59, _⟩ => ⟨S512x2048, .f32⟩
  | .hbm, ⟨60, _⟩ => ⟨S512x2048, .f32⟩
  | .hbm, ⟨61, _⟩ => ⟨S512x2048, .f32⟩
  | .hbm, ⟨62, _⟩ => ⟨S2048x512, .f32⟩
  | .hbm, ⟨63, _⟩ => ⟨S2048x512, .bf16⟩
  | .hbm, ⟨64, _⟩ => ⟨S1x512, .f32⟩
  | .hbm, ⟨65, _⟩ => ⟨S1x512, .f32⟩
  | .hbm, ⟨66, _⟩ => ⟨S32768x512, .f32⟩
  | .local _ .vmem, ⟨0, _⟩ => ⟨S1024x512, .f32⟩
  | .local _ .vmem, ⟨1, _⟩ => ⟨S1024x512, .f32⟩
  | .local _ .vmem, ⟨2, _⟩ => ⟨S512x2048, .bf16⟩
  | .local _ .vmem, ⟨3, _⟩ => ⟨S1x2048, .f32⟩
  | .local _ .vmem, ⟨4, _⟩ => ⟨S1x2048, .f32⟩
  | .local _ .vmem, ⟨5, _⟩ => ⟨S1x1, .f32⟩
  | .local _ .vmem, ⟨6, _⟩ => ⟨S1024x2048, .f32⟩
  | .local _ .vmem, ⟨7, _⟩ => ⟨S1024x2048, .f32⟩
  | .local _ .vmem, ⟨8, _⟩ => ⟨S512x2048, .f32⟩
  | .local _ .vmem, ⟨9, _⟩ => ⟨S512x2048, .f32⟩
  | .local _ .vmem, ⟨10, _⟩ => ⟨S2048x2048, .bf16⟩
  | .local _ .vmem, ⟨11, _⟩ => ⟨S1x2048, .f32⟩
  | .local _ .vmem, ⟨12, _⟩ => ⟨S1x2048, .f32⟩
  | .local _ .vmem, ⟨13, _⟩ => ⟨S1x1, .f32⟩
  | .local _ .vmem, ⟨14, _⟩ => ⟨S512x2048, .f32⟩
  | .local _ .vmem, ⟨15, _⟩ => ⟨S512x2048, .f32⟩
  | .local _ .vmem, ⟨16, _⟩ => ⟨S1024x2048, .f32⟩
  | .local _ .vmem, ⟨17, _⟩ => ⟨S1024x2048, .f32⟩
  | .local _ .vmem, ⟨18, _⟩ => ⟨S2048x512, .bf16⟩
  | .local _ .vmem, ⟨19, _⟩ => ⟨S1x512, .f32⟩
  | .local _ .vmem, ⟨20, _⟩ => ⟨S1x512, .f32⟩
  | .local _ .vmem, ⟨21, _⟩ => ⟨S1024x512, .f32⟩
  | .local _ .vmem, ⟨22, _⟩ => ⟨S1024x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_cst_6 : Ref sig .tc := ⟨.hbm, 34, rfl⟩
abbrev main_v17 : Ref sig .tc := ⟨.hbm, 35, rfl⟩
abbrev main_v18 : Ref sig .tc := ⟨.hbm, 36, rfl⟩
abbrev main_cst_7 : Ref sig .tc := ⟨.hbm, 37, rfl⟩
abbrev main_cst_8 : Ref sig .tc := ⟨.hbm, 38, rfl⟩
abbrev main_call1_v0 : Ref sig .tc := ⟨.hbm, 39, rfl⟩
abbrev main_call1_v1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_cst_10 : Ref sig .tc := ⟨.hbm, 51, rfl⟩
abbrev main_v28 : Ref sig .tc := ⟨.hbm, 52, rfl⟩
abbrev main_v29 : Ref sig .tc := ⟨.hbm, 53, rfl⟩
abbrev main_cst_11 : Ref sig .tc := ⟨.hbm, 54, rfl⟩
abbrev main_v30 : Ref sig .tc := ⟨.hbm, 55, rfl⟩
abbrev main_v31 : Ref sig .tc := ⟨.hbm, 56, rfl⟩
abbrev main_cst_12 : Ref sig .tc := ⟨.hbm, 57, rfl⟩
abbrev main_cst_13 : Ref sig .tc := ⟨.hbm, 58, rfl⟩
abbrev main_call2_v0 : Ref sig .tc := ⟨.hbm, 59, rfl⟩
abbrev main_call2_v1 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  reducesTo_S2048x512_S2048_d1 : S2048x512.ReducesTo [1] S2048
  h_S_ : 0 < S_.numel
  bcast_S_S2048 : S_.BroadcastsInDim S2048 (![] : Fin 0 → Fin S2048.rank)
  bcast_S_S2048x512 : S_.BroadcastsInDim S2048x512 (![] : Fin 0 → Fin S2048x512.rank)
  transposes_S2048x512_S512x2048_1_0 : S2048x512.Transposes [1, 0] S512x2048
  bitsLt_bf16_f32 : FTy.bits .bf16 < FTy.bits .f32
  shapeCasts_S2048_S1x2048 : S2048.ShapeCasts S1x2048
  shapeCasts_S1_S1x1 : S1.ShapeCasts S1x1
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  broadcasts_S1024x1_S1024x2048 : S1024x1.Broadcasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x2048_S1024x2048_0_0 : ∀ a, (![0, 0] : Fin 2 → Nat) a + S1024x2048.size a ≤ S1024x2048.size a
  h_S1024x2048 : 0 < S1024x2048.numel
  reducesTo_S2048x2048_S2048_d1 : S2048x2048.ReducesTo [1] S2048
  bcast_S_S2048x2048 : S_.BroadcastsInDim S2048x2048 (![] : Fin 0 → Fin S2048x2048.rank)
  transposes_S2048x2048_S2048x2048_1_0 : S2048x2048.Transposes [1, 0] S2048x2048
  reduces_S512x2048_S512 : S512x2048.Reduces [1] S512
  shapeCasts_S512_S512x1 : S512.ShapeCasts S512x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S512x1_S512x2048 : S512x1.Broadcasts S512x2048
  broadcasts_S1x2048_S512x2048 : S1x2048.Broadcasts S512x2048
  reducesTo_S512x2048_S512_d1 : S512x2048.ReducesTo [1] S512
  bcast_S_S512 : S_.BroadcastsInDim S512 (![] : Fin 0 → Fin S512.rank)
  bcast_S_S512x2048 : S_.BroadcastsInDim S512x2048 (![] : Fin 0 → Fin S512x2048.rank)
  transposes_S512x2048_S2048x512_1_0 : S512x2048.Transposes [1, 0] S2048x512
  shapeCasts_S512_S1x512 : S512.ShapeCasts S1x512
  shapeCasts_S1024x2048_S1024x2048 : S1024x2048.ShapeCasts S1024x2048
  reduces_S1024x2048_S1024 : S1024x2048.Reduces [1] S1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x2048_S1024x2048_1_0_0_1_n_n_wf : DotDims.WF S1024x512 S512x2048 S1024x2048 [1] [0] [0] [1] [] []
  dot_S512x2048_S2048x2048_S512x2048_1_0_0_1_n_n_wf : DotDims.WF S512x2048 S2048x2048 S512x2048 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S32768x2048.size a
  hwx0_5 : ∀ i : grid0.Coords, EltTy.bits .f32 = 32 ∨ (Rect.block (s := S32768x2048) S1024x2048.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S32768x2048.size a
  hwx1_0 : ∀ i : grid1.Coords, EltTy.bits .f32 = 32 ∨ (Rect.block (s := S32768x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x2048.size a ≤ S32768x2048.size a
  hwx1_5 : ∀ i : grid1.Coords, EltTy.bits .f32 = 32 ∨ (Rect.block (s := S32768x2048) S512x2048.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S32768x2048.size a
  hwx2_0 : ∀ i : grid2.Coords, EltTy.bits .f32 = 32 ∨ (Rect.block (s := S32768x2048) S1024x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S2048x512.size a
  hwx2_1 : ∀ i : grid2.Coords, EltTy.bits .bf16 = 32 ∨ (Rect.block (s := S2048x512) S2048x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x512.size a ≤ S32768x512.size a
  hwx2_4 : ∀ i : grid2.Coords, EltTy.bits .f32 = 32 ∨ (Rect.block (s := S32768x512) S1024x512.size (cc2_transform_4 i) (hinb2_4 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S512x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v25) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2048x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1024x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S32768x512 : Shape := ⟨2, ![32768, 512]⟩
abbrev S2048x512 : Shape := ⟨2, ![2048, 512]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S1 : Shape := ⟨1, ![1]⟩
abbrev S_ : Shape := ⟨0, ![]⟩
abbrev S32768 : Shape := ⟨1, ![32768]⟩
abbrev S32768x1 : Shape := ⟨2, ![32768, 1]⟩
abbrev S32768x2048 : Shape := ⟨2, ![32768, 2048]⟩
abbrev S1x2048 : Shape := ⟨2, ![1, 2048]⟩
abbrev S1x1 : Shape := ⟨2, ![1, 1]⟩
abbrev S1x512 : Shape := ⟨2, ![1, 512]⟩

abbrev nBuf : Space → Nat
  | .hbm => 145
  | .vmem => 0
  | .smem => 0
  | _ => 0

abbrev hbmTy0_0 (i : Nat) : BufTy := match i % 128 with
  | 0 => ⟨S32768x512, .f32⟩
  | 1 => ⟨S2048x512, .f32⟩
  | 2 => ⟨S2048, .f32⟩
  | 3 => ⟨S2048x2048, .f32⟩
  | 4 => ⟨S2048, .f32⟩
  | 5 => ⟨S512x2048, .f32⟩
  | 6 => ⟨S512, .f32⟩
  | 7 => ⟨S1, .f32⟩
  | 8 => ⟨S32768x512, .f32⟩
  | 9 => ⟨S_, .f32⟩
  | 10 => ⟨S32768, .f32⟩
  | 11 => ⟨S32768x1, .f32⟩
  | 12 => ⟨S_, .f32⟩
  | 13 => ⟨S32768x1, .f32⟩
  | 14 => ⟨S32768x1, .f32⟩
  | 15 => ⟨S2048x512, .f32⟩
  | 16 => ⟨S_, .f32⟩
  | 17 => ⟨S2048, .f32⟩
  | 18 => ⟨S_, .f32⟩
  | 19 => ⟨S2048, .f32⟩
  | 20 => ⟨S2048, .f32⟩
  | 21 => ⟨S_, .f32⟩
  | 22 => ⟨S32768x512, .f32⟩
  | 23 => ⟨S32768x512, .i1⟩
  | 24 => ⟨S_, .f32⟩
  | 25 => ⟨S_, .f32⟩
  | 26 => ⟨S32768x512, .f32⟩
  | 27 => ⟨S32768x512, .f32⟩
  | 28 => ⟨S32768x512, .f32⟩
  | 29 => ⟨S32768x512, .f32⟩
  | 30 => ⟨S_, .f32⟩
  | 31 => ⟨S2048x512, .f32⟩
  | 32 => ⟨S2048x512, .i1⟩
  | 33 => ⟨S_, .f32⟩
  | 34 => ⟨S_, .f32⟩
  | 35 => ⟨S2048x512, .f32⟩
  | 36 => ⟨S2048x512, .f32⟩
  | 37 => ⟨S2048x512, .f32⟩
  | 38 => ⟨S2048x512, .f32⟩
  | 39 => ⟨S512x2048, .f32⟩
  | 40 => ⟨S32768x2048, .f32⟩
  | 41 => ⟨S32768x2048, .f32⟩
  | 42 => ⟨S32768x2048, .f32⟩
  | 43 => ⟨S1x2048, .f32⟩
  | 44 => ⟨S32768x2048, .f32⟩
  | 45 => ⟨S32768x2048, .f32⟩
  | 46 => ⟨S1x2048, .f32⟩
  | 47 => ⟨S32768x2048, .f32⟩
  | 48 => ⟨S32768x2048, .f32⟩
  | 49 => ⟨S_, .f32⟩
  | 50 => ⟨S32768x2048, .f32⟩
  | 51 => ⟨S32768x2048, .i1⟩
  | 52 => ⟨S1x1, .f32⟩
  | 53 => ⟨S32768x2048, .f32⟩
  | 54 => ⟨S32768x2048, .f32⟩
  | 55 => ⟨S32768x2048, .f32⟩
  | 56 => ⟨S32768x2048, .f32⟩
  | 57 => ⟨S_, .f32⟩
  | 58 => ⟨S32768, .f32⟩
  | 59 => ⟨S32768x1, .f32⟩
  | 60 => ⟨S_, .f32⟩
  | 61 => ⟨S32768x1, .f32⟩
  | 62 => ⟨S32768x1, .f32⟩
  | 63 => ⟨S2048x2048, .f32⟩
  | 64 => ⟨S_, .f32⟩
  | 65 => ⟨S2048, .f32⟩
  | 66 => ⟨S_, .f32⟩
  | 67 => ⟨S2048, .f32⟩
  | 68 => ⟨S2048, .f32⟩
  | 69 => ⟨S_, .f32⟩
  | 70 => ⟨S32768x2048, .f32⟩
  | 71 => ⟨S32768x2048, .i1⟩
  | 72 => ⟨S_, .f32⟩
  | 73 => ⟨S_, .f32⟩
  | 74 => ⟨S32768x2048, .f32⟩
  | 75 => ⟨S32768x2048, .f32⟩
  | 76 => ⟨S32768x2048, .f32⟩
  | 77 => ⟨S32768x2048, .f32⟩
  | 78 => ⟨S_, .f32⟩
  | 79 => ⟨S2048x2048, .f32⟩
  | 80 => ⟨S2048x2048, .i1⟩
  | 81 => ⟨S_, .f32⟩
  | 82 => ⟨S_, .f32⟩
  | 83 => ⟨S2048x2048, .f32⟩
  | 84 => ⟨S2048x2048, .f32⟩
  | 85 => ⟨S2048x2048, .f32⟩
  | 86 => ⟨S2048x2048, .f32⟩
  | 87 => ⟨S2048x2048, .f32⟩
  | 88 => ⟨S32768x2048, .f32⟩
  | 89 => ⟨S32768x2048, .f32⟩
  | 90 => ⟨S32768x2048, .f32⟩
  | 91 => ⟨S1x2048, .f32⟩
  | 92 => ⟨S32768x2048, .f32⟩
  | 93 => ⟨S32768x2048, .f32⟩
  | 94 => ⟨S1x2048, .f32⟩
  | 95 => ⟨S32768x2048, .f32⟩
  | 96 => ⟨S32768x2048, .f32⟩
  | 97 => ⟨S_, .f32⟩
  | 98 => ⟨S32768x2048, .f32⟩
  | 99 => ⟨S32768x2048, .i1⟩
  | 100 => ⟨S1x1, .f32⟩
  | 101 => ⟨S32768x2048, .f32⟩
  | 102 => ⟨S32768x2048, .f32⟩
  | 103 => ⟨S32768x2048, .f32⟩
  | 104 => ⟨S32768x2048, .f32⟩
  | 105 => ⟨S_, .f32⟩
  | 106 => ⟨S32768, .f32⟩
  | 107 => ⟨S32768x1, .f32⟩
  | 108 => ⟨S_, .f32⟩
  | 109 => ⟨S32768x1, .f32⟩
  | 110 => ⟨S32768x1, .f32⟩
  | 111 => ⟨S512x2048, .f32⟩
  | 112 => ⟨S_, .f32⟩
  | 113 => ⟨S512, .f32⟩
  | 114 => ⟨S_, .f32⟩
  | 115 => ⟨S512, .f32⟩
  | 116 => ⟨S512, .f32⟩
  | 117 => ⟨S_, .f32⟩
  | 118 => ⟨S32768x2048, .f32⟩
  | 119 => ⟨S32768x2048, .i1⟩
  | 120 => ⟨S_, .f32⟩
  | 121 => ⟨S_, .f32⟩
  | 122 => ⟨S32768x2048, .f32⟩
  | 123 => ⟨S32768x2048, .f32⟩
  | 124 => ⟨S32768x2048, .f32⟩
  | 125 => ⟨S32768x2048, .f32⟩
  | 126 => ⟨S_, .f32⟩
  | 127 => ⟨S512x2048, .f32⟩
  | _ => ⟨S32768x512, .f32⟩

abbrev hbmTy0_1 (i : Nat) : BufTy := match i % 128 with
  | 0 => ⟨S512x2048, .i1⟩
  | 1 => ⟨S_, .f32⟩
  | 2 => ⟨S_, .f32⟩
  | 3 => ⟨S512x2048, .f32⟩
  | 4 => ⟨S512x2048, .f32⟩
  | 5 => ⟨S512x2048, .f32⟩
  | 6 => ⟨S512x2048, .f32⟩
  | 7 => ⟨S2048x512, .f32⟩
  | 8 => ⟨S32768x512, .f32⟩
  | 9 => ⟨S32768x512, .f32⟩
  | 10 => ⟨S32768x512, .f32⟩
  | 11 => ⟨S1x512, .f32⟩
  | 12 => ⟨S32768x512, .f32⟩
  | 13 => ⟨S32768x512, .f32⟩
  | 14 => ⟨S1x512, .f32⟩
  | 15 => ⟨S32768x512, .f32⟩
  | 16 => ⟨S32768x512, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_cst_5 : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_v12 : Ref sig .tc := ⟨.hbm, 29, rfl⟩
abbrev main_cst_6 : Ref sig .tc := ⟨.hbm, 30, rfl⟩
abbrev main_v13 : Ref sig .tc := ⟨.hbm, 31, rfl⟩
abbrev main_v14 : Ref sig .tc := ⟨.hbm, 32, rfl⟩
abbrev main_cst_7 : Ref sig .tc := ⟨.hbm, 33, rfl⟩
abbrev main_cst_8 : Ref sig .tc := ⟨.hbm, 34, rfl⟩
abbrev main_call1_v0 : Ref sig .tc := ⟨.hbm, 35, rfl⟩
abbrev main_call1_v1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_10 : Ref sig .tc := ⟨.hbm, 57, rfl⟩
abbrev main_v34 : Ref sig .tc := ⟨.hbm, 58, rfl⟩
abbrev main_v35 : Ref sig .tc := ⟨.hbm, 59, rfl⟩
abbrev main_cst_11 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_12 : Ref sig .tc := ⟨.hbm, 64, rfl⟩
abbrev main_v39 : Ref sig .tc := ⟨.hbm, 65, rfl⟩
abbrev main_cst_13 : Ref sig .tc := ⟨.hbm, 66, rfl⟩
abbrev main_v40 : Ref sig .tc := ⟨.hbm, 67, rfl⟩
abbrev main_v41 : Ref sig .tc := ⟨.hbm, 68, rfl⟩
abbrev main_cst_14 : Ref sig .tc := ⟨.hbm, 69, rfl⟩
abbrev main_v42 : Ref sig .tc := ⟨.hbm, 70, rfl⟩
abbrev main_v43 : Ref sig .tc := ⟨.hbm, 71, rfl⟩
abbrev main_cst_15 : Ref sig .tc := ⟨.hbm, 72, rfl⟩
abbrev main_cst_16 : Ref sig .tc := ⟨.hbm, 73, rfl⟩
abbrev main_call3_v0 : Ref sig .tc := ⟨.hbm, 74, rfl⟩
abbrev main_call3_v1 : Ref sig .tc := ⟨.hbm, 75, rfl⟩
abbrev main_v44 : Ref sig .tc := ⟨.hbm, 76, rfl⟩
abbrev main_v45 : Ref sig .tc := ⟨.hbm, 77, rfl⟩
abbrev main_cst_17 : Ref sig .tc := ⟨.hbm, 78, rfl⟩
abbrev main_v46 : Ref sig .tc := ⟨.hbm, 79, rfl⟩
abbrev main_v47 : Ref sig .tc := ⟨.hbm, 80, rfl⟩
abbrev main_cst_18 : Ref sig .tc := ⟨.hbm, 81, rfl⟩
abbrev main_cst_19 : Ref sig .tc := ⟨.hbm, 82, rfl⟩
abbrev main_call4_v0 : Ref sig .tc := ⟨.hbm, 83, rfl⟩
abbrev main_call4_v1 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_20 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_21 : Ref sig .tc := ⟨.hbm, 105, rfl⟩
abbrev main_v67 : Ref sig .tc := ⟨.hbm, 106, rfl⟩
abbrev main_v68 : Ref sig .tc := ⟨.hbm, 107, rfl⟩
abbrev main_cst_22 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_23 : Ref sig .tc := ⟨.hbm, 112, rfl⟩
abbrev main_v72 : Ref sig .tc := ⟨.hbm, 113, rfl⟩
abbrev main_cst_24 : Ref sig .tc := ⟨.hbm, 114, rfl⟩
abbrev main_v73 : Ref sig .tc := ⟨.hbm, 115, rfl⟩
abbrev main_v74 : Ref sig .tc := ⟨.hbm, 116, rfl⟩
abbrev main_cst_25 : Ref sig .tc := ⟨.hbm, 117, rfl⟩
abbrev main_v75 : Ref sig .tc := ⟨.hbm, 118, rfl⟩
abbrev main_v76 : Ref sig .tc := ⟨.hbm, 119, rfl⟩
abbrev main_cst_26 : Ref sig .tc := ⟨.hbm, 120, rfl⟩
abbrev main_cst_27 : Ref sig .tc := ⟨.hbm, 121, rfl⟩
abbrev main_call6_v0 : Ref sig .tc := ⟨.hbm, 122, rfl⟩
abbrev main_call6_v1 : Ref sig .tc := ⟨.hbm, 123, rfl⟩
abbrev main_v77 : Ref sig .tc := ⟨.hbm, 124, rfl⟩
abbrev main_v78 : Ref sig .tc := ⟨.hbm, 125, rfl⟩
abbrev main_cst_28 : Ref sig .tc := ⟨.hbm, 126, rfl⟩
abbrev main_v79 : Ref sig .tc := ⟨.hbm, 127, rfl⟩
abbrev main_v80 : Ref sig .tc := ⟨.hbm, 128, rfl⟩
abbrev main_cst_29 : Ref sig .tc := ⟨.hbm, 129, rfl⟩
abbrev main_cst_30 : Ref sig .tc := ⟨.hbm, 130, rfl⟩
abbrev main_call7_v0 : Ref sig .tc := ⟨.hbm, 131, rfl⟩
abbrev main_call7_v1 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩

abbrev nD : Nat := 1
abbrev τ : Topo := Topo.v7x

variable {F : FTy → Type} [FloatOps F]

class Facts₀ : Prop where
  reducesTo_S32768x512_S32768_d1 : S32768x512.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  reducesTo_S2048x512_S2048_d1 : S2048x512.ReducesTo [1] S2048
  bcast_S_S2048 : S_.BroadcastsInDim S2048 (![] : Fin 0 → Fin S2048.rank)
  bcast_S_S32768x512 : S_.BroadcastsInDim S32768x512 (![] : Fin 0 → Fin S32768x512.rank)
  bcast_S_S2048x512 : S_.BroadcastsInDim S2048x512 (![] : Fin 0 → Fin S2048x512.rank)
  transposes_S2048x512_S512x2048_1_0 : S2048x512.Transposes [1, 0] S512x2048
  bcast_S32768x1_S32768x2048_0_1 : S32768x1.BroadcastsInDim S32768x2048 (![0, 1] : Fin 2 → Fin S32768x2048.rank)
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  bcast_S1_S1x1_1 : S1.BroadcastsInDim S1x1 (![1] : Fin 1 → Fin S1x1.rank)
  bcast_S1x1_S32768x2048_0_1 : S1x1.BroadcastsInDim S32768x2048 (![0, 1] : Fin 2 → Fin S32768x2048.rank)
  reducesTo_S32768x2048_S32768_d1 : S32768x2048.ReducesTo [1] S32768
  reducesTo_S2048x2048_S2048_d1 : S2048x2048.ReducesTo [1] S2048
  bcast_S_S2048x2048 : S_.BroadcastsInDim S2048x2048 (![] : Fin 0 → Fin S2048x2048.rank)
  transposes_S2048x2048_S2048x2048_1_0 : S2048x2048.Transposes [1, 0] S2048x2048
  reducesTo_S512x2048_S512_d1 : S512x2048.ReducesTo [1] S512
  bcast_S_S512 : S_.BroadcastsInDim S512 (![] : Fin 0 → Fin S512.rank)
  bcast_S_S512x2048 : S_.BroadcastsInDim S512x2048 (![] : Fin 0 → Fin S512x2048.rank)
  transposes_S512x2048_S2048x512_1_0 : S512x2048.Transposes [1, 0] S2048x512
  bcast_S32768x1_S32768x512_0_1 : S32768x1.BroadcastsInDim S32768x512 (![0, 1] : Fin 2 → Fin S32768x512.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  dot_S32768x512_S512x2048_S32768x2048_1_0_0_1_n_n_wf : DotDims.WF S32768x512 S512x2048 S32768x2048 [1] [0] [0] [1] [] []
  dot_S32768x2048_S2048x2048_S32768x2048_1_0_0_1_n_n_wf : DotDims.WF S32768x2048 S2048x2048 S32768x2048 [1] [0] [0] [1] [] []
  dot_S32768x2048_S2048x512_S32768x512_1_0_0_1_n_n_wf : DotDims.WF S32768x2048 S2048x512 S32768x512 [1] [0] [0] [1] [] []

variable [Facts₀]

def dot_S32768x512_S512x2048_S32768x2048_1_0_0_1_n_n : DotDims S32768x512 S512x2048 S32768x2048 where
  lhsContracting := [1]
  rhsContracting := [0]
  lhsNonContracting := [0]
  rhsNonContracting := [1]
  lhsBatch := []
  rhsBatch := []
  wf := dot_S32768x512_S512x2048_S32768x2048_1_0_0_1_n_n_wf
def dot_S32768x2048_S2048x2048_S32768x2048_1_0_0_1_n_n : DotDims S32768x2048 S2048x2048 S32768x2048 where
  lhsContracting := [1]
  rhsContracting := [0]
  lhsNonContracting := [0]
  rhsNonContracting := [1]
  lhsBatch := []
  rhsBatch := []
  wf := dot_S32768x2048_S2048x2048_S32768x2048_1_0_0_1_n_n_wf
def dot_S32768x2048_S2048x512_S32768x512_1_0_0_1_n_n : DotDims S32768x2048 S2048x512 S32768x512 where
  lhsContracting := [1]
  rhsContracting := [0]
  lhsNonContracting := [0]
  rhsNonContracting := [1]
  lhsBatch := []
  rhsBatch := []
  wf := dot_S32768x2048_S2048x512_S32768x512_1_0_0_1_n_n_wf

class Facts : Prop extends Facts₀ where

variable [Facts]
-- ==== Proof.RefRun.lean ====
/-
  The reference program's run and its stage-by-stage reading, brought in for the modules that compare
  the reference's result with the layered specification.
-/
import proofs.«168489_j28200755265763_1_alg».proof.Proof.Gen.ReferenceIdeal.Run
import proofs.«168489_j28200755265763_1_alg».proof.Proof.Gen.ReferenceIdeal.Read
-- ==== Proof.Spec.lean ====
/-
  The network both programs compute, written once over the extended reals, entry by entry.

  One binarized layer takes activations x (one row per sample), a weight matrix W (one row per output channel),
  a bias b and, where it has an activation, the slope p. Its value at (r, c), before the activation, is

      ((∑ₖ sgn x(r,k) · sgn W(c,k)) · (∑ₖ |x(r,k)| / n)) · (∑ₖ |W(c,k)| / n) + b(c)

  with sgn v = +1 for v ≥ 0 and −1 otherwise, and n the width of a row as a float. The activation maps v to v when
  v > 0 and to p · v otherwise. The network is three such layers, the last without activation.

  The pre-activation value is stated over what a layer's matrix product and scalings are actually applied to: the
  activations, the TRANSPOSED weight signs s(k,c), the per-channel scale a(c) and the bias b(c); `wsign` and
  `wscale` say how s and a come from W. Comparisons, selections, |·| and the quotient are the exact operations on the
  extended reals; the literals are kept as the words both programs print (0, 1, −1, 512, 2048).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The float zero, as an extended real. -/
abbrev z0 : EReal := Ideal.ofBits .f32 0x00000000#32

/-- The binarizing sign: +1 where v ≥ 0, −1 elsewhere. -/
def sgn (v : EReal) : EReal :=
  Scalar.select (FloatOps.cmpf (F := Ideal) (φ := .f32) .oge v z0) (Ideal.ofBits .f32 0x3F800000#32) (Ideal.ofBits .f32 0xBF800000#32)

/-- The absolute value. -/
def absE (v : EReal) : EReal := FloatOps.absf (F := Ideal) (φ := .f32) v

/-- A layer before its activation, at sample r and channel c: the product of sign rows, scaled by the sample's mean
    magnitude and the channel's scale, plus the channel's bias. -/
def pre {R K C : ℕ} (n : EReal) (x : Fin R → Fin K → EReal) (s : Fin K → Fin C → EReal) (a b : Fin C → EReal)
    (r : Fin R) (c : Fin C) : EReal :=
  ((∑ k : Fin K, sgn (x r k) * s k c) * Ideal.div (∑ k : Fin K, absE (x r k)) n) * a c + b c

/-- The activation with slope p: the identity on the positive numbers, multiplication by p elsewhere. -/
def act (p v : EReal) : EReal :=
  Scalar.select (FloatOps.cmpf (F := Ideal) (φ := .f32) .ogt v z0) v (p * v)

/-- The transposed signs of a weight matrix. -/
def wsign {C K : ℕ} (W : Fin C → Fin K → EReal) : Fin K → Fin C → EReal := fun k c => sgn (W c k)

/-- A weight matrix's per-channel scale: the mean magnitude of the channel's row (the sum taken from the float zero). -/
def wscale {C K : ℕ} (n : EReal) (W : Fin C → Fin K → EReal) : Fin C → EReal :=
  fun c => Ideal.div (z0 + ∑ k : Fin K, absE (W c k)) n

/-- A layer with its activation. -/
def layer {R K C : ℕ} (n p : EReal) (x : Fin R → Fin K → EReal) (W : Fin C → Fin K → EReal) (b : Fin C → EReal) :
    Fin R → Fin C → EReal :=
  fun r c => act p (pre n x (wsign W) (wscale n W) b r c)

/-- The widths 512 and 2048 as floats. -/
abbrev n512 : EReal := Ideal.ofBits .f32 0x44000000#32
abbrev n2048 : EReal := Ideal.ofBits .f32 0x45000000#32

/-- The network: 512 → 2048 → 2048 → 512 features, two activated layers and a plain one. -/
def net (x : Fin 32768 → Fin 512 → EReal) (W1 : Fin 2048 → Fin 512 → EReal) (b1 : Fin 2048 → EReal)
    (W2 : Fin 2048 → Fin 2048 → EReal) (b2 : Fin 2048 → EReal) (W3 : Fin 512 → Fin 2048 → EReal) (b3 : Fin 512 → EReal)
    (p : EReal) : Fin 32768 → Fin 512 → EReal :=
  pre n2048 (layer n2048 p (layer n512 p x W1 b1) W2 b2) (wsign W3) (wscale n2048 W3) b3

/-! ## Arrays as functions of coordinates -/

/-- A matrix array read by its two coordinates. -/
abbrev mat {R C : ℕ} (v : (⟨2, ![R, C]⟩ : Shape).Idx → EReal) : Fin R → Fin C → EReal := fun r c => v (ix2 r c)

/-- A one-row matrix array read by its column. -/
abbrev row {C : ℕ} (v : (⟨2, ![1, C]⟩ : Shape).Idx → EReal) : Fin C → EReal := fun c => v (ix2 (0 : Fin 1) c)

/-- A vector array read by its coordinate. -/
abbrev vec {C : ℕ} (v : (⟨1, ![C]⟩ : Shape).Idx → EReal) : Fin C → EReal := fun c => v (ix1 c)

/-- A function of two coordinates as a matrix array. -/
abbrev arr {R C : ℕ} (f : Fin R → Fin C → EReal) : (⟨2, ![R, C]⟩ : Shape).Idx → EReal := fun i => f (i 0) (i 1)

theorem mat_arr {R C : ℕ} (f : Fin R → Fin C → EReal) : mat (arr f) = f := rfl

end Cert.Spec

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a `[1, 1]` array's one element taken at position `(0, 0)` is the array at `(0, 0)`;
  • the vector exponential read at an index is the exponential of the operand's entry (on the extended reals);
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array taken at position `(0, 0)`. -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- On the extended reals the vector exponential, read at an index, is the exponential of the operand's entry there. -/
theorem exp_apply {s : Shape} {φ : FTy} (x : FVec Ideal s φ) (i : s.Idx) : exp x i = Ideal.exp (x i) := rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.Payload.lean ====
/-
  What each kernel body stores, read at one entry (p, q) of its output block, over the extended reals: the layer's
  value of `Spec` on the body's loaded blocks — the activation block x0 (its rows are the samples of the block), the
  transposed weight signs x1, the per-channel scale row x2, the bias row x3 and, for the two activated layers, the
  slope x4(0,0).

  The body multiplies the block's sign matrix with x1 into a zero accumulator: at (p, q) that is the sum over k of
  sgn x0(p,k) · x1(k,q). It sums |x0| along each row, makes the sums a column, divides by the row width and spreads
  the column over the channels: at (p, q) that is the mean magnitude of row p. The scale and bias rows are spread
  over the samples: at (p, q) they are x2(0,q) and x3(0,q). A change of float format and a cast to the same shape
  are the identity. So the stored value is `pre`, and with the closing selection `act` of it.
-/
import proofs.«168489_j28200755265763_1_alg».proof.Proof.Gen.KernelIdeal.Skeleton
import proofs.«168489_j28200755265763_1_alg».proof.Proof.Spec
import proofs.«168489_j28200755265763_1_alg».proof.Proof.LibDot
import proofs.«168489_j28200755265763_1_alg».proof.Proof.LibKeepdims
import Idealize.ShloMosaic.Lib.ValueLayout

set_option maxRecDepth 16384

noncomputable section

open scoped BigOperators

namespace Cert.KernelIdeal.Bridge

open Idealize.ShloMosaic Idealize.ShloMosaic.TcCoe Idealize.ShloMosaic.ValueIdx Cert.KernelIdeal Cert.KernelIdeal.Gen Cert.Spec

/-- The closing selection is the activation: equal arguments and equal slopes give equal values. -/
theorem act_congr (A B e e' : EReal) (hA : A = B) (he : e = e') :
    Scalar.select (FloatOps.cmpf (F := Ideal) (φ := .f32) .ogt A z0) A (e * A) = act e' B := by
  subst hA; subst he; rfl

/-- A layer's value before the activation, assembled from its four factors: the sign product M, the sample's mean
    magnitude D, the channel's scale A and bias B. -/
theorem pre_congr {R K C : ℕ} (n : EReal) (x : Fin R → Fin K → EReal) (s : Fin K → Fin C → EReal) (a b : Fin C → EReal)
    (r : Fin R) (c : Fin C) (M D A B : EReal) (hM : M = ∑ k : Fin K, sgn (x r k) * s k c)
    (hD : D = Ideal.div (∑ k : Fin K, absE (x r k)) n) (hA : A = a c) (hB : B = b c) :
    M * D * A + B = pre n x s a b r c := by
  subst hM; subst hD; subst hA; subst hB; rfl

/-- The first layer's body, on a block of 1024 samples of width 512, into 2048 channels. -/
theorem pay0_at (x0 : Vec Ideal S1024x512 .f32) (x1 : Vec Ideal S512x2048 .bf16) (x2 x3 : Vec Ideal S1x2048 .f32)
    (x4 : Vec Ideal S1x1 .f32) (p : Fin 1024) (q : Fin 2048) :
    k0_pay1 (F := Ideal) x0 x1 x2 x3 x4 (ix2 p q)
      = act (x4 (ix2 0 0)) (pre n512 (mat x0) (mat x1) (row x2) (row x3) p q) := by
  unfold k0_pay1
  simp only [shapeCast_self, select_apply, cmpf_apply, mulf_apply, addf_apply, broadcast_apply]
  refine act_congr _ _ _ _ ?_ (extractAt_11 x4 _)
  refine pre_congr _ _ _ _ _ _ _ _ _ _ _ ?_ ?_ ?_ ?_
  · simp only [matmul]
    rw [Cert.LibDot.matmul_zero_at _ rfl rfl rfl rfl rfl rfl]
    rfl
  · refine (broadcastTo_a1_ab_apply _ _ p q).trans ?_
    refine congrArg₂ Ideal.div ?_ rfl
    refine (shapeCast_a_a1_apply _ _ p 0).trans ?_
    refine (multiReduction_add_rows_apply _ _ _ _ _ p).trans ?_
    rfl
  · exact broadcastTo_1b_ab_apply _ _ p q
  · exact broadcastTo_1b_ab_apply _ _ p q

/-- The second layer's body, on a block of 512 samples of width 2048, into 2048 channels. -/
theorem pay1_at (x0 : Vec Ideal S512x2048 .f32) (x1 : Vec Ideal S2048x2048 .bf16) (x2 x3 : Vec Ideal S1x2048 .f32)
    (x4 : Vec Ideal S1x1 .f32) (p : Fin 512) (q : Fin 2048) :
    k1_pay1 (F := Ideal) x0 x1 x2 x3 x4 (ix2 p q)
      = act (x4 (ix2 0 0)) (pre n2048 (mat x0) (mat x1) (row x2) (row x3) p q) := by
  unfold k1_pay1
  simp only [shapeCast_self, select_apply, cmpf_apply, mulf_apply, addf_apply, broadcast_apply]
  refine act_congr _ _ _ _ ?_ (extractAt_11 x4 _)
  refine pre_congr _ _ _ _ _ _ _ _ _ _ _ ?_ ?_ ?_ ?_
  · simp only [matmul]
    rw [Cert.LibDot.matmul_zero_at _ rfl rfl rfl rfl rfl rfl]
    rfl
  · refine (broadcastTo_a1_ab_apply _ _ p q).trans ?_
    refine congrArg₂ Ideal.div ?_ rfl
    refine (shapeCast_a_a1_apply _ _ p 0).trans ?_
    refine (multiReduction_add_rows_apply _ _ _ _ _ p).trans ?_
    rfl
  · exact broadcastTo_1b_ab_apply _ _ p q
  · exact broadcastTo_1b_ab_apply _ _ p q

/-- The last layer's body, on a block of 1024 samples of width 2048, into 512 channels: no activation. -/
theorem pay2_at (x0 : Vec Ideal S1024x2048 .f32) (x1 : Vec Ideal S2048x512 .bf16) (x2 x3 : Vec Ideal S1x512 .f32)
    (p : Fin 1024) (q : Fin 512) :
    k2_pay1 (F := Ideal) x0 x1 x2 x3 (ix2 p q)
      = pre n2048 (mat x0) (mat x1) (row x2) (row x3) p q := by
  unfold k2_pay1
  simp only [shapeCast_self, mulf_apply, addf_apply]
  refine pre_congr _ _ _ _ _ _ _ _ _ _ _ ?_ ?_ ?_ ?_
  · simp only [matmul]
    rw [Cert.LibDot.matmul_zero_at _ rfl rfl rfl rfl rfl rfl]
    rfl
  · refine (broadcastTo_a1_ab_apply _ _ p q).trans ?_
    refine congrArg₂ Ideal.div ?_ rfl
    refine (shapeCast_a_a1_apply _ _ p 0).trans ?_
    refine (multiReduction_add_rows_apply _ _ _ _ _ p).trans ?_
    rfl
  · exact broadcastTo_1b_ab_apply _ _ p q
  · exact broadcastTo_1b_ab_apply _ _ p q

end Cert.KernelIdeal.Bridge

end
-- ==== Proof.Region0.lean ====
/-
  Region 0, from blocks to the array. The grid has 32 points; point t reads rows 1024·t … 1024·t + 1023 of the
  activations and the whole of the weight signs, the scale row, the bias row and the slope, and writes rows
  1024·t … 1024·t + 1023 of the output. A row of the layer's value depends on the same row of the activations only, so
  every written block is the restriction of ONE function of the arrays the region finds, and the 32 blocks tile the
  output array: after the last point the output array is that function.
-/
import proofs.«168489_j28200755265763_1_alg».proof.Proof.Gen.KernelIdeal.Frame
import proofs.«168489_j28200755265763_1_alg».proof.Proof.Spec
import proofs.«168489_j28200755265763_1_alg».proof.Proof.Payload
import Idealize.ShloMosaic.Lib.Pipeline.Value

set_option maxRecDepth 16384
noncomputable section

open scoped BigOperators
open Idealize.ShloMosaic Idealize.ShloMosaic.TcCoe Idealize.ShloMosaic.ValueIdx Idealize.SL.Sem Cert.Spec
open Idealize.ShloMosaic.Pipeline (Dat)

namespace Cert.KernelIdeal.Bridge
open Cert.KernelIdeal Cert.KernelIdeal.Gen

namespace Region0

/-- The zero offset of a load or store of a whole block. -/
theorem off_zero : (![0, 0] : Fin 2 → Nat) = fun _ => 0 := funext fun a => by fin_cases a <;> rfl

/-- The layer's value as one function of the five arrays, entry by entry. -/
abbrev layerArr (X : S32768x512.Idx → EReal) (S : S512x2048.Idx → EReal) (A B : S1x2048.Idx → EReal)
    (P : S1x1.Idx → EReal) : S32768x2048.Idx → EReal :=
  arr (fun r q => act (P (ix2 0 0)) (pre n512 (mat X) (mat S) (row A) (row B) r q))

/-- Where each window's block sits at point t: the activations' and the output's block index is (t, 0), the other four
    windows' is (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The activations' block at point t is rows 1024·t … 1024·t + 1023 of the array. -/
theorem xblock_apply (c : Dev nD) (t : Fin cfg0.N) (y : S1024x512.Idx) (k : S32768x512.Idx)
    (hk0 : (k 0).val = 1024 * t.val + (y 0).val) (hk1 : (k 1).val = (y 1).val) :
    (iblk0 V c 0 t : Vec Ideal S1024x512 .f32) y = (V c main_arg0 : S32768x512.Idx → EReal) k := by
  obtain ⟨e0, e1, -⟩ := block_index t
  unfold iblk0
  rw [View.read_apply]
  show V c main_arg0 _ = V c main_arg0 _
  congr 1
  funext a
  apply Fin.ext
  match a with
  | ⟨0, _⟩ => show win0_0.index t 0 * 1024 + 1 * (y 0).val = (k 0).val; rw [e0, hk0]; omega
  | ⟨1, _⟩ => show win0_0.index t 1 * 512 + 1 * (y 1).val = (k 1).val; rw [e1, hk1]; omega

/-- The weight signs' block at every point is the whole array. -/
theorem sblock_eq (c : Dev nD) (t : Fin cfg0.N) :
    (iblk0 V c 1 t : Vec Ideal S512x2048 .bf16) = (V c main_v8 : S512x2048.Idx → EReal) := by
  obtain ⟨-, -, e0, e1, -⟩ := block_index t
  funext y
  unfold iblk0
  rw [View.read_apply]
  show V c main_v8 _ = V c main_v8 _
  congr 1
  funext a
  apply Fin.ext
  match a with
  | ⟨0, _⟩ => show win0_1.index t 0 * 512 + 1 * (y 0).val = (y 0).val; rw [e0]; omega
  | ⟨1, _⟩ => show win0_1.index t 1 * 2048 + 1 * (y 1).val = (y 1).val; rw [e1]; omega

/-- The scale row's block at every point is the whole row. -/
theorem ablock_eq (c : Dev nD) (t : Fin cfg0.N) :
    (iblk0 V c 2 t : Vec Ideal S1x2048 .f32) = (V c main_v9 : S1x2048.Idx → EReal) := by
  obtain ⟨-, -, -, -, e0, e1, -⟩ := block_index t
  funext y
  unfold iblk0
  rw [View.read_apply]
  show V c main_v9 _ = V c main_v9 _
  congr 1
  funext a
  apply Fin.ext
  match a with
  | ⟨0, _⟩ => show win0_2.index t 0 * 1 + 1 * (y 0).val = (y 0).val; rw [e0]; omega
  | ⟨1, _⟩ => show win0_2.index t 1 * 2048 + 1 * (y 1).val = (y 1).val; rw [e1]; omega

/-- The bias row's block at every point is the whole row. -/
theorem bblock_eq (c : Dev nD) (t : Fin cfg0.N) :
    (iblk0 V c 3 t : Vec Ideal S1x2048 .f32) = (V c main_v10 : S1x2048.Idx → EReal) := by
  obtain ⟨-, -, -, -, -, -, e0, e1, -⟩ := block_index t
  funext y
  unfold iblk0
  rw [View.read_apply]
  show V c main_v10 _ = V c main_v10 _
  congr 1
  funext a
  apply Fin.ext
  match a with
  | ⟨0, _⟩ => show win0_3.index t 0 * 1 + 1 * (y 0).val = (y 0).val; rw [e0]; omega
  | ⟨1, _⟩ => show win0_3.index t 1 * 2048 + 1 * (y 1).val = (y 1).val; rw [e1]; omega

/-- The slope's block at every point is the one-entry array. -/
theorem pblock_eq (c : Dev nD) (t : Fin cfg0.N) :
    (iblk0 V c 4 t : Vec Ideal S1x1 .f32) = (V c main_v11 : S1x1.Idx → EReal) := by
  obtain ⟨-, -, -, -, -, -, -, -, e0, e1, -⟩ := block_index t
  funext y
  unfold iblk0
  rw [View.read_apply]
  show V c main_v11 _ = V c main_v11 _
  congr 1
  funext a
  apply Fin.ext
  match a with
  | ⟨0, _⟩ => show win0_4.index t 0 * 1 + 1 * (y 0).val = (y 0).val; rw [e0]; omega
  | ⟨1, _⟩ => show win0_4.index t 1 * 1 + 1 * (y 1).val = (y 1).val; rw [e1]; omega

/-- A layer's pre-activation value at a row depends on that row of the activations only. -/
theorem pre_congr_row {R R' K C : ℕ} (n : EReal) (x : Fin R → Fin K → EReal) (x' : Fin R' → Fin K → EReal)
    (s : Fin K → Fin C → EReal) (a b : Fin C → EReal) (r : Fin R) (r' : Fin R') (q : Fin C)
    (h : ∀ k, x r k = x' r' k) : pre n x s a b r q = pre n x' s a b r' q := by
  unfold pre
  simp only [h]

/-- What the body stores at entry (p, q) of its block, when row p of the activation block is row i₀ of the array, the
    other four blocks are the whole arrays and q is the column i₁: the layer's value of the arrays at i. -/
theorem point_value (X : S32768x512.Idx → EReal) (S : S512x2048.Idx → EReal) (A B : S1x2048.Idx → EReal)
    (P : S1x1.Idx → EReal) (x0 : Vec Ideal S1024x512 .f32) (x1 : Vec Ideal S512x2048 .bf16)
    (x2 x3 : Vec Ideal S1x2048 .f32) (x4 : Vec Ideal S1x1 .f32) (p : Fin 1024) (q : Fin 2048) (i : S32768x2048.Idx)
    (h0 : ∀ k : Fin 512, x0 (ix2 p k) = X (ix2 (i 0) k)) (h1 : x1 = S) (h2 : x2 = A) (h3 : x3 = B) (h4 : x4 = P)
    (hq : i 1 = q) :
    k0_pay1 (F := Ideal) x0 x1 x2 x3 x4 (ix2 p q) = layerArr X S A B P i := by
  subst h1 h2 h3 h4
  rw [pay0_at]
  exact (congrArg (act (x4 (ix2 0 0))) (pre_congr_row n512 (mat x0) (mat X) (mat x1) (row x2) (row x3) p (i 0) q h0)).trans
    (congrArg (fun j : Fin 2048 => act (x4 (ix2 0 0)) (pre n512 (mat X) (mat x1) (row x2) (row x3) (i 0) j)) hq.symm)

/-- What point t writes back is block t of the layer's value of the arrays the region finds. -/
theorem flushed_eq (c : Dev nD) (t : Fin cfg0.N) :
    (dat0 (F := Ideal) V c).flushed 5 t = ((cfg0.win 5).blk t).view.read (Elt Ideal)
      (layerArr (V c main_arg0) (V c main_v8) (V c main_v9) (V c main_v10) (V c main_v11)) := by
  show (cfg0.win 5).cut (grid0.coords t) ((dat0 V c).after 5 t) = _
  rw [after0_5]
  unfold out0_5
  rw [View.canon_unit_zero off_zero]
  simp only [View.ld_unit_zero (S := S1024x512) off_zero, View.ld_unit_zero (S := S512x2048) off_zero,
    View.ld_unit_zero (S := S1x2048) off_zero, View.ld_unit_zero (S := S1x1) off_zero]
  obtain ⟨-, -, -, -, -, -, -, -, -, -, e0, e1⟩ := block_index t
  funext y
  have hy : y = ix2 (n0 := 1024) (n1 := 2048) (y 0) (y 1) := eq_ix2 (n0 := 1024) (n1 := 2048) y
  show k0_pay1 (F := Ideal) (iblk0 V c 0 t) (iblk0 V c 1 t) (iblk0 V c 2 t) (iblk0 V c 3 t) (iblk0 V c 4 t) y
    = layerArr (V c main_arg0) (V c main_v8) (V c main_v9) (V c main_v10) (V c main_v11) (((cfg0.win 5).blk t).view.emb y)
  refine (congrArg (k0_pay1 (F := Ideal) (iblk0 V c 0 t) (iblk0 V c 1 t) (iblk0 V c 2 t) (iblk0 V c 3 t) (iblk0 V c 4 t)) hy).trans ?_
  refine point_value (V c main_arg0) (V c main_v8) (V c main_v9) (V c main_v10) (V c main_v11)
    (iblk0 V c 0 t) (iblk0 V c 1 t) (iblk0 V c 2 t) (iblk0 V c 3 t) (iblk0 V c 4 t) (y 0) (y 1)
    (((cfg0.win 5).blk t).view.emb y) (fun k => ?_) (sblock_eq V c t) (ablock_eq V c t) (bblock_eq V c t) (pblock_eq V c t) ?_
  · refine xblock_apply V c t (ix2 (y 0) k) (ix2 ((((cfg0.win 5).blk t).view.emb y) 0) k) ?_ rfl
    show win0_5.index t 0 * 1024 + 1 * (y 0).val = 1024 * t.val + (y 0).val
    rw [e0]; omega
  · apply Fin.ext
    show win0_5.index t 1 * 2048 + 1 * (y 1).val = (y 1).val
    rw [e1]; omega

/-- An index of the output array is in point t's block iff each coordinate is in the block's range on its axis. -/
theorem mem_block (t : Fin cfg0.N) (i : S32768x2048.Idx) :
    i ∈ ((cfg0.win 5).blk t).view.set ↔ ∀ a : Fin 2, win0_5.index t a * S1024x2048.size a ≤ (i a).val
      ∧ (i a).val < win0_5.index t a * S1024x2048.size a + S1024x2048.size a := by
  show i ∈ ((View.whole main_v12).slice (win0_5.rect t)).set ↔ _
  rw [View.set_slice_whole, Rect.mem_set_unit]
  exact Iff.rfl

/-- Every index of the output array is in the block of the point its row divided by 1024 names. -/
theorem covered (i : S32768x2048.Idx) :
    ∃ t : Fin cfg0.N, (cfg0.win 5).flush t = true ∧ i ∈ ((cfg0.win 5).blk t).view.set := by
  have hi0 : (i 0).val < 32768 := (i 0).isLt
  have hi1 : (i 1).val < 2048 := (i 1).isLt
  have hN : cfg0.N = 32 := N_0
  obtain ⟨t, ht⟩ : ∃ t : Fin cfg0.N, t.val = (i 0).val / 1024 := ⟨⟨(i 0).val / 1024, by rw [hN]; omega⟩, rfl⟩
  obtain ⟨-, -, -, -, -, -, -, -, -, -, e0, e1⟩ := block_index t
  refine ⟨t, flush0_5 t, ?_⟩
  rw [mem_block]
  intro a
  match a with
  | ⟨0, _⟩ =>
    show win0_5.index t 0 * 1024 ≤ (i 0).val ∧ (i 0).val < win0_5.index t 0 * 1024 + 1024
    rw [e0, ht]; omega
  | ⟨1, _⟩ =>
    show win0_5.index t 1 * 2048 ≤ (i 1).val ∧ (i 1).val < win0_5.index t 1 * 2048 + 2048
    rw [e1]; omega

end Region0

/-- The output array after region 0, for any contents the region finds: the first layer, with its activation, of the
    activations, the transposed weight signs, the scale row, the bias row and the slope, entry by entry. -/
theorem region0_array (V : (c : Dev nD) → (b : Ref sig .tc) → Buf (Elt Ideal) ((c : Thread nD τ).loc b)) (c : Dev nD) :
    ((dat0 (F := Ideal) V c).arrAt 5 cfg0.N : S32768x2048.Idx → EReal)
      = arr (fun r q => act ((V c main_v11 : S1x1.Idx → EReal) (ix2 0 0))
          (pre n512 (mat (V c main_arg0 : S32768x512.Idx → EReal)) (mat (V c main_v8 : S512x2048.Idx → EReal))
            (row (V c main_v9 : S1x2048.Idx → EReal)) (row (V c main_v10 : S1x2048.Idx → EReal)) r q)) :=
  (dat0 (F := Ideal) V c).arrAt_eq_of_cover 5
    (Region0.layerArr (V c main_arg0) (V c main_v8) (V c main_v9) (V c main_v10) (V c main_v11))
    (fun t _ => Region0.flushed_eq V c t) Region0.covered

end Cert.KernelIdeal.Bridge
end
-- ==== Proof.Region1.lean ====
/-
  Region 1, from blocks to the array. The grid has 64 points; point t reads rows 512·t … 512·t + 511 of the
  activations and the whole of the weight signs, the scale row, the bias row and the slope, and writes rows
  512·t … 512·t + 511 of the output. A row of the layer's value depends on the same row of the activations only, so
  every written block is the restriction of ONE function of the arrays the region finds, and the 64 blocks tile the
  output array: after the last point the output array is that function.
-/
import proofs.«168489_j28200755265763_1_alg».proof.Proof.Gen.KernelIdeal.Frame
import proofs.«168489_j28200755265763_1_alg».proof.Proof.Spec
import proofs.«168489_j28200755265763_1_alg».proof.Proof.Payload
import Idealize.ShloMosaic.Lib.Pipeline.Value

set_option maxRecDepth 16384
noncomputable section

open scoped BigOperators
open Idealize.ShloMosaic Idealize.ShloMosaic.TcCoe Idealize.ShloMosaic.ValueIdx Idealize.SL.Sem Cert.Spec
open Idealize.ShloMosaic.Pipeline (Dat)

namespace Cert.KernelIdeal.Bridge
open Cert.KernelIdeal Cert.KernelIdeal.Gen

namespace Region1

/-- The zero offset of a load or store of a whole block. -/
theorem off_zero : (![0, 0] : Fin 2 → Nat) = fun _ => 0 := funext fun a => by fin_cases a <;> rfl

/-- The layer's value as one function of the five arrays, entry by entry. -/
abbrev layerArr (X : S32768x2048.Idx → EReal) (S : S2048x2048.Idx → EReal) (A B : S1x2048.Idx → EReal)
    (P : S1x1.Idx → EReal) : S32768x2048.Idx → EReal :=
  arr (fun r q => act (P (ix2 0 0)) (pre n2048 (mat X) (mat S) (row A) (row B) r q))

/-- Where each window's block sits at point t: the activations' and the output's block index is (t, 0), the other four
    windows' is (0, 0). -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The activations' block at point t is rows 512·t … 512·t + 511 of the array. -/
theorem xblock_apply (c : Dev nD) (t : Fin cfg1.N) (y : S512x2048.Idx) (k : S32768x2048.Idx)
    (hk0 : (k 0).val = 512 * t.val + (y 0).val) (hk1 : (k 1).val = (y 1).val) :
    (iblk1 V c 0 t : Vec Ideal S512x2048 .f32) y = (V c main_v12 : S32768x2048.Idx → EReal) k := by
  obtain ⟨e0, e1, -⟩ := block_index t
  unfold iblk1
  rw [View.read_apply]
  show V c main_v12 _ = V c main_v12 _
  congr 1
  funext a
  apply Fin.ext
  match a with
  | ⟨0, _⟩ => show win1_0.index t 0 * 512 + 1 * (y 0).val = (k 0).val; rw [e0, hk0]; omega
  | ⟨1, _⟩ => show win1_0.index t 1 * 2048 + 1 * (y 1).val = (k 1).val; rw [e1, hk1]; omega

/-- The weight signs' block at every point is the whole array. -/
theorem sblock_eq (c : Dev nD) (t : Fin cfg1.N) :
    (iblk1 V c 1 t : Vec Ideal S2048x2048 .bf16) = (V c main_v21 : S2048x2048.Idx → EReal) := by
  obtain ⟨-, -, e0, e1, -⟩ := block_index t
  funext y
  unfold iblk1
  rw [View.read_apply]
  show V c main_v21 _ = V c main_v21 _
  congr 1
  funext a
  apply Fin.ext
  match a with
  | ⟨0, _⟩ => show win1_1.index t 0 * 2048 + 1 * (y 0).val = (y 0).val; rw [e0]; omega
  | ⟨1, _⟩ => show win1_1.index t 1 * 2048 + 1 * (y 1).val = (y 1).val; rw [e1]; omega

/-- The scale row's block at every point is the whole row. -/
theorem ablock_eq (c : Dev nD) (t : Fin cfg1.N) :
    (iblk1 V c 2 t : Vec Ideal S1x2048 .f32) = (V c main_v22 : S1x2048.Idx → EReal) := by
  obtain ⟨-, -, -, -, e0, e1, -⟩ := block_index t
  funext y
  unfold iblk1
  rw [View.read_apply]
  show V c main_v22 _ = V c main_v22 _
  congr 1
  funext a
  apply Fin.ext
  match a with
  | ⟨0, _⟩ => show win1_2.index t 0 * 1 + 1 * (y 0).val = (y 0).val; rw [e0]; omega
  | ⟨1, _⟩ => show win1_2.index t 1 * 2048 + 1 * (y 1).val = (y 1).val; rw [e1]; omega

/-- The bias row's block at every point is the whole row. -/
theorem bblock_eq (c : Dev nD) (t : Fin cfg1.N) :
    (iblk1 V c 3 t : Vec Ideal S1x2048 .f32) = (V c main_v23 : S1x2048.Idx → EReal) := by
  obtain ⟨-, -, -, -, -, -, e0, e1, -⟩ := block_index t
  funext y
  unfold iblk1
  rw [View.read_apply]
  show V c main_v23 _ = V c main_v23 _
  congr 1
  funext a
  apply Fin.ext
  match a with
  | ⟨0, _⟩ => show win1_3.index t 0 * 1 + 1 * (y 0).val = (y 0).val; rw [e0]; omega
  | ⟨1, _⟩ => show win1_3.index t 1 * 2048 + 1 * (y 1).val = (y 1).val; rw [e1]; omega

/-- The slope's block at every point is the one-entry array. -/
theorem pblock_eq (c : Dev nD) (t : Fin cfg1.N) :
    (iblk1 V c 4 t : Vec Ideal S1x1 .f32) = (V c main_v24 : S1x1.Idx → EReal) := by
  obtain ⟨-, -, -, -, -, -, -, -, e0, e1, -⟩ := block_index t
  funext y
  unfold iblk1
  rw [View.read_apply]
  show V c main_v24 _ = V c main_v24 _
  congr 1
  funext a
  apply Fin.ext
  match a with
  | ⟨0, _⟩ => show win1_4.index t 0 * 1 + 1 * (y 0).val = (y 0).val; rw [e0]; omega
  | ⟨1, _⟩ => show win1_4.index t 1 * 1 + 1 * (y 1).val = (y 1).val; rw [e1]; omega

/-- A layer's pre-activation value at a row depends on that row of the activations only. -/
theorem pre_congr_row {R R' K C : ℕ} (n : EReal) (x : Fin R → Fin K → EReal) (x' : Fin R' → Fin K → EReal)
    (s : Fin K → Fin C → EReal) (a b : Fin C → EReal) (r : Fin R) (r' : Fin R') (q : Fin C)
    (h : ∀ k, x r k = x' r' k) : pre n x s a b r q = pre n x' s a b r' q := by
  unfold pre
  simp only [h]

/-- What the body stores at entry (p, q) of its block, when row p of the activation block is row i₀ of the array, the
    other four blocks are the whole arrays and q is the column i₁: the layer's value of the arrays at i. -/
theorem point_value (X : S32768x2048.Idx → EReal) (S : S2048x2048.Idx → EReal) (A B : S1x2048.Idx → EReal)
    (P : S1x1.Idx → EReal) (x0 : Vec Ideal S512x2048 .f32) (x1 : Vec Ideal S2048x2048 .bf16)
    (x2 x3 : Vec Ideal S1x2048 .f32) (x4 : Vec Ideal S1x1 .f32) (p : Fin 512) (q : Fin 2048) (i : S32768x2048.Idx)
    (h0 : ∀ k : Fin 2048, x0 (ix2 p k) = X (ix2 (i 0) k)) (h1 : x1 = S) (h2 : x2 = A) (h3 : x3 = B) (h4 : x4 = P)
    (hq : i 1 = q) :
    k1_pay1 (F := Ideal) x0 x1 x2 x3 x4 (ix2 p q) = layerArr X S A B P i := by
  subst h1 h2 h3 h4
  rw [pay1_at]
  exact (congrArg (act (x4 (ix2 0 0))) (pre_congr_row n2048 (mat x0) (mat X) (mat x1) (row x2) (row x3) p (i 0) q h0)).trans
    (congrArg (fun j : Fin 2048 => act (x4 (ix2 0 0)) (pre n2048 (mat X) (mat x1) (row x2) (row x3) (i 0) j)) hq.symm)

/-- What point t writes back is block t of the layer's value of the arrays the region finds. -/
theorem flushed_eq (c : Dev nD) (t : Fin cfg1.N) :
    (dat1 (F := Ideal) V c).flushed 5 t = ((cfg1.win 5).blk t).view.read (Elt Ideal)
      (layerArr (V c main_v12) (V c main_v21) (V c main_v22) (V c main_v23) (V c main_v24)) := by
  show (cfg1.win 5).cut (grid1.coords t) ((dat1 V c).after 5 t) = _
  rw [after1_5]
  unfold out1_5
  rw [View.canon_unit_zero off_zero]
  simp only [View.ld_unit_zero (S := S512x2048) off_zero, View.ld_unit_zero (S := S2048x2048) off_zero,
    View.ld_unit_zero (S := S1x2048) off_zero, View.ld_unit_zero (S := S1x1) off_zero]
  obtain ⟨-, -, -, -, -, -, -, -, -, -, e0, e1⟩ := block_index t
  funext y
  have hy : y = ix2 (n0 := 512) (n1 := 2048) (y 0) (y 1) := eq_ix2 (n0 := 512) (n1 := 2048) y
  show k1_pay1 (F := Ideal) (iblk1 V c 0 t) (iblk1 V c 1 t) (iblk1 V c 2 t) (iblk1 V c 3 t) (iblk1 V c 4 t) y
    = layerArr (V c main_v12) (V c main_v21) (V c main_v22) (V c main_v23) (V c main_v24) (((cfg1.win 5).blk t).view.emb y)
  refine (congrArg (k1_pay1 (F := Ideal) (iblk1 V c 0 t) (iblk1 V c 1 t) (iblk1 V c 2 t) (iblk1 V c 3 t) (iblk1 V c 4 t)) hy).trans ?_
  refine point_value (V c main_v12) (V c main_v21) (V c main_v22) (V c main_v23) (V c main_v24)
    (iblk1 V c 0 t) (iblk1 V c 1 t) (iblk1 V c 2 t) (iblk1 V c 3 t) (iblk1 V c 4 t) (y 0) (y 1)
    (((cfg1.win 5).blk t).view.emb y) (fun k => ?_) (sblock_eq V c t) (ablock_eq V c t) (bblock_eq V c t) (pblock_eq V c t) ?_
  · refine xblock_apply V c t (ix2 (y 0) k) (ix2 ((((cfg1.win 5).blk t).view.emb y) 0) k) ?_ rfl
    show win1_5.index t 0 * 512 + 1 * (y 0).val = 512 * t.val + (y 0).val
    rw [e0]; omega
  · apply Fin.ext
    show win1_5.index t 1 * 2048 + 1 * (y 1).val = (y 1).val
    rw [e1]; omega

/-- An index of the output array is in point t's block iff each coordinate is in the block's range on its axis. -/
theorem mem_block (t : Fin cfg1.N) (i : S32768x2048.Idx) :
    i ∈ ((cfg1.win 5).blk t).view.set ↔ ∀ a : Fin 2, win1_5.index t a * S512x2048.size a ≤ (i a).val
      ∧ (i a).val < win1_5.index t a * S512x2048.size a + S512x2048.size a := by
  show i ∈ ((View.whole main_v25).slice (win1_5.rect t)).set ↔ _
  rw [View.set_slice_whole, Rect.mem_set_unit]
  exact Iff.rfl

/-- Every index of the output array is in the block of the point its row divided by 512 names. -/
theorem covered (i : S32768x2048.Idx) :
    ∃ t : Fin cfg1.N, (cfg1.win 5).flush t = true ∧ i ∈ ((cfg1.win 5).blk t).view.set := by
  have hi0 : (i 0).val < 32768 := (i 0).isLt
  have hi1 : (i 1).val < 2048 := (i 1).isLt
  have hN : cfg1.N = 64 := N_1
  obtain ⟨t, ht⟩ : ∃ t : Fin cfg1.N, t.val = (i 0).val / 512 := ⟨⟨(i 0).val / 512, by rw [hN]; omega⟩, rfl⟩
  obtain ⟨-, -, -, -, -, -, -, -, -, -, e0, e1⟩ := block_index t
  refine ⟨t, flush1_5 t, ?_⟩
  rw [mem_block]
  intro a
  match a with
  | ⟨0, _⟩ =>
    show win1_5.index t 0 * 512 ≤ (i 0).val ∧ (i 0).val < win1_5.index t 0 * 512 + 512
    rw [e0, ht]; omega
  | ⟨1, _⟩ =>
    show win1_5.index t 1 * 2048 ≤ (i 1).val ∧ (i 1).val < win1_5.index t 1 * 2048 + 2048
    rw [e1]; omega

end Region1

/-- The output array after region 1, for any contents the region finds: the second layer, with its activation, of the
    activations, the transposed weight signs, the scale row, the bias row and the slope, entry by entry. -/
theorem region1_array (V : (c : Dev nD) → (b : Ref sig .tc) → Buf (Elt Ideal) ((c : Thread nD τ).loc b)) (c : Dev nD) :
    ((dat1 (F := Ideal) V c).arrAt 5 cfg1.N : S32768x2048.Idx → EReal)
      = arr (fun r q => act ((V c main_v24 : S1x1.Idx → EReal) (ix2 0 0))
          (pre n2048 (mat (V c main_v12 : S32768x2048.Idx → EReal)) (mat (V c main_v21 : S2048x2048.Idx → EReal))
            (row (V c main_v22 : S1x2048.Idx → EReal)) (row (V c main_v23 : S1x2048.Idx → EReal)) r q)) :=
  (dat1 (F := Ideal) V c).arrAt_eq_of_cover 5
    (Region1.layerArr (V c main_v12) (V c main_v21) (V c main_v22) (V c main_v23) (V c main_v24))
    (fun t _ => Region1.flushed_eq V c t) Region1.covered

end Cert.KernelIdeal.Bridge
end
-- ==== Proof.Region2.lean ====
/-
  Region 2, from blocks to the array. The grid has 32 points; point t reads rows 1024·t … 1024·t + 1023 of the
  activations and the whole of the weight signs, the scale row and the bias row, and writes rows
  1024·t … 1024·t + 1023 of the output. A row of the layer's value depends on the same row of the activations only, so
  every written block is the restriction of ONE function of the arrays the region finds, and the 32 blocks tile the
  output array: after the last point the output array is that function. This layer has no activation.
-/
import proofs.«168489_j28200755265763_1_alg».proof.Proof.Gen.KernelIdeal.Frame
import proofs.«168489_j28200755265763_1_alg».proof.Proof.Spec
import proofs.«168489_j28200755265763_1_alg».proof.Proof.Payload
import Idealize.ShloMosaic.Lib.Pipeline.Value

set_option maxRecDepth 16384
noncomputable section

open scoped BigOperators
open Idealize.ShloMosaic Idealize.ShloMosaic.TcCoe Idealize.ShloMosaic.ValueIdx Idealize.SL.Sem Cert.Spec
open Idealize.ShloMosaic.Pipeline (Dat)

namespace Cert.KernelIdeal.Bridge
open Cert.KernelIdeal Cert.KernelIdeal.Gen

namespace Region2

/-- The zero offset of a load or store of a whole block. -/
theorem off_zero : (![0, 0] : Fin 2 → Nat) = fun _ => 0 := funext fun a => by fin_cases a <;> rfl

/-- The layer's value as one function of the four arrays, entry by entry. -/
abbrev layerArr (X : S32768x2048.Idx → EReal) (S : S2048x512.Idx → EReal) (A B : S1x512.Idx → EReal) :
    S32768x512.Idx → EReal :=
  arr (fun r q => pre n2048 (mat X) (mat S) (row A) (row B) r q)

/-- Where each window's block sits at point t: the activations' and the output's block index is (t, 0), the other
    three windows' is (0, 0). -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- The activations' block at point t is rows 1024·t … 1024·t + 1023 of the array. -/
theorem xblock_apply (c : Dev nD) (t : Fin cfg2.N) (y : S1024x2048.Idx) (k : S32768x2048.Idx)
    (hk0 : (k 0).val = 1024 * t.val + (y 0).val) (hk1 : (k 1).val = (y 1).val) :
    (iblk2 V c 0 t : Vec Ideal S1024x2048 .f32) y = (V c main_v25 : S32768x2048.Idx → EReal) k := by
  obtain ⟨e0, e1, -⟩ := block_index t
  unfold iblk2
  rw [View.read_apply]
  show V c main_v25 _ = V c main_v25 _
  congr 1
  funext a
  apply Fin.ext
  match a with
  | ⟨0, _⟩ => show win2_0.index t 0 * 1024 + 1 * (y 0).val = (k 0).val; rw [e0, hk0]; omega
  | ⟨1, _⟩ => show win2_0.index t 1 * 2048 + 1 * (y 1).val = (k 1).val; rw [e1, hk1]; omega

/-- The weight signs' block at every point is the whole array. -/
theorem sblock_eq (c : Dev nD) (t : Fin cfg2.N) :
    (iblk2 V c 1 t : Vec Ideal S2048x512 .bf16) = (V c main_v34 : S2048x512.Idx → EReal) := by
  obtain ⟨-, -, e0, e1, -⟩ := block_index t
  funext y
  unfold iblk2
  rw [View.read_apply]
  show V c main_v34 _ = V c main_v34 _
  congr 1
  funext a
  apply Fin.ext
  match a with
  | ⟨0, _⟩ => show win2_1.index t 0 * 2048 + 1 * (y 0).val = (y 0).val; rw [e0]; omega
  | ⟨1, _⟩ => show win2_1.index t 1 * 512 + 1 * (y 1).val = (y 1).val; rw [e1]; omega

/-- The scale row's block at every point is the whole row. -/
theorem ablock_eq (c : Dev nD) (t : Fin cfg2.N) :
    (iblk2 V c 2 t : Vec Ideal S1x512 .f32) = (V c main_v35 : S1x512.Idx → EReal) := by
  obtain ⟨-, -, -, -, e0, e1, -⟩ := block_index t
  funext y
  unfold iblk2
  rw [View.read_apply]
  show V c main_v35 _ = V c main_v35 _
  congr 1
  funext a
  apply Fin.ext
  match a with
  | ⟨0, _⟩ => show win2_2.index t 0 * 1 + 1 * (y 0).val = (y 0).val; rw [e0]; omega
  | ⟨1, _⟩ => show win2_2.index t 1 * 512 + 1 * (y 1).val = (y 1).val; rw [e1]; omega

/-- The bias row's block at every point is the whole row. -/
theorem bblock_eq (c : Dev nD) (t : Fin cfg2.N) :
    (iblk2 V c 3 t : Vec Ideal S1x512 .f32) = (V c main_v36 : S1x512.Idx → EReal) := by
  obtain ⟨-, -, -, -, -, -, e0, e1, -⟩ := block_index t
  funext y
  unfold iblk2
  rw [View.read_apply]
  show V c main_v36 _ = V c main_v36 _
  congr 1
  funext a
  apply Fin.ext
  match a with
  | ⟨0, _⟩ => show win2_3.index t 0 * 1 + 1 * (y 0).val = (y 0).val; rw [e0]; omega
  | ⟨1, _⟩ => show win2_3.index t 1 * 512 + 1 * (y 1).val = (y 1).val; rw [e1]; omega

/-- A layer's pre-activation value at a row depends on that row of the activations only. -/
theorem pre_congr_row {R R' K C : ℕ} (n : EReal) (x : Fin R → Fin K → EReal) (x' : Fin R' → Fin K → EReal)
    (s : Fin K → Fin C → EReal) (a b : Fin C → EReal) (r : Fin R) (r' : Fin R') (q : Fin C)
    (h : ∀ k, x r k = x' r' k) : pre n x s a b r q = pre n x' s a b r' q := by
  unfold pre
  simp only [h]

/-- What the body stores at entry (p, q) of its block, when row p of the activation block is row i₀ of the array, the
    other three blocks are the whole arrays and q is the column i₁: the layer's value of the arrays at i. -/
theorem point_value (X : S32768x2048.Idx → EReal) (S : S2048x512.Idx → EReal) (A B : S1x512.Idx → EReal)
    (x0 : Vec Ideal S1024x2048 .f32) (x1 : Vec Ideal S2048x512 .bf16)
    (x2 x3 : Vec Ideal S1x512 .f32) (p : Fin 1024) (q : Fin 512) (i : S32768x512.Idx)
    (h0 : ∀ k : Fin 2048, x0 (ix2 p k) = X (ix2 (i 0) k)) (h1 : x1 = S) (h2 : x2 = A) (h3 : x3 = B)
    (hq : i 1 = q) :
    k2_pay1 (F := Ideal) x0 x1 x2 x3 (ix2 p q) = layerArr X S A B i := by
  subst h1 h2 h3
  rw [pay2_at]
  exact (pre_congr_row n2048 (mat x0) (mat X) (mat x1) (row x2) (row x3) p (i 0) q h0).trans
    (congrArg (fun j : Fin 512 => pre n2048 (mat X) (mat x1) (row x2) (row x3) (i 0) j) hq.symm)

/-- What point t writes back is block t of the layer's value of the arrays the region finds. -/
theorem flushed_eq (c : Dev nD) (t : Fin cfg2.N) :
    (dat2 (F := Ideal) V c).flushed 4 t = ((cfg2.win 4).blk t).view.read (Elt Ideal)
      (layerArr (V c main_v25) (V c main_v34) (V c main_v35) (V c main_v36)) := by
  show (cfg2.win 4).cut (grid2.coords t) ((dat2 V c).after 4 t) = _
  rw [after2_4]
  unfold out2_4
  rw [View.canon_unit_zero off_zero]
  simp only [View.ld_unit_zero (S := S1024x2048) off_zero, View.ld_unit_zero (S := S2048x512) off_zero,
    View.ld_unit_zero (S := S1x512) off_zero]
  obtain ⟨-, -, -, -, -, -, -, -, e0, e1⟩ := block_index t
  funext y
  have hy : y = ix2 (n0 := 1024) (n1 := 512) (y 0) (y 1) := eq_ix2 (n0 := 1024) (n1 := 512) y
  show k2_pay1 (F := Ideal) (iblk2 V c 0 t) (iblk2 V c 1 t) (iblk2 V c 2 t) (iblk2 V c 3 t) y
    = layerArr (V c main_v25) (V c main_v34) (V c main_v35) (V c main_v36) (((cfg2.win 4).blk t).view.emb y)
  refine (congrArg (k2_pay1 (F := Ideal) (iblk2 V c 0 t) (iblk2 V c 1 t) (iblk2 V c 2 t) (iblk2 V c 3 t)) hy).trans ?_
  refine point_value (V c main_v25) (V c main_v34) (V c main_v35) (V c main_v36)
    (iblk2 V c 0 t) (iblk2 V c 1 t) (iblk2 V c 2 t) (iblk2 V c 3 t) (y 0) (y 1)
    (((cfg2.win 4).blk t).view.emb y) (fun k => ?_) (sblock_eq V c t) (ablock_eq V c t) (bblock_eq V c t) ?_
  · refine xblock_apply V c t (ix2 (y 0) k) (ix2 ((((cfg2.win 4).blk t).view.emb y) 0) k) ?_ rfl
    show win2_4.index t 0 * 1024 + 1 * (y 0).val = 1024 * t.val + (y 0).val
    rw [e0]; omega
  · apply Fin.ext
    show win2_4.index t 1 * 512 + 1 * (y 1).val = (y 1).val
    rw [e1]; omega

/-- An index of the output array is in point t's block iff each coordinate is in the block's range on its axis. -/
theorem mem_block (t : Fin cfg2.N) (i : S32768x512.Idx) :
    i ∈ ((cfg2.win 4).blk t).view.set ↔ ∀ a : Fin 2, win2_4.index t a * S1024x512.size a ≤ (i a).val
      ∧ (i a).val < win2_4.index t a * S1024x512.size a + S1024x512.size a := by
  show i ∈ ((View.whole main_v37).slice (win2_4.rect t)).set ↔ _
  rw [View.set_slice_whole, Rect.mem_set_unit]
  exact Iff.rfl

/-- Every index of the output array is in the block of the point its row divided by 1024 names. -/
theorem covered (i : S32768x512.Idx) :
    ∃ t : Fin cfg2.N, (cfg2.win 4).flush t = true ∧ i ∈ ((cfg2.win 4).blk t).view.set := by
  have hi0 : (i 0).val < 32768 := (i 0).isLt
  have hi1 : (i 1).val < 512 := (i 1).isLt
  have hN : cfg2.N = 32 := N_2
  obtain ⟨t, ht⟩ : ∃ t : Fin cfg2.N, t.val = (i 0).val / 1024 := ⟨⟨(i 0).val / 1024, by rw [hN]; omega⟩, rfl⟩
  obtain ⟨-, -, -, -, -, -, -, -, e0, e1⟩ := block_index t
  refine ⟨t, flush2_4 t, ?_⟩
  rw [mem_block]
  intro a
  match a with
  | ⟨0, _⟩ =>
    show win2_4.index t 0 * 1024 ≤ (i 0).val ∧ (i 0).val < win2_4.index t 0 * 1024 + 1024
    rw [e0, ht]; omega
  | ⟨1, _⟩ =>
    show win2_4.index t 1 * 512 ≤ (i 1).val ∧ (i 1).val < win2_4.index t 1 * 512 + 512
    rw [e1]; omega

end Region2

/-- The output array after region 2, for any contents the region finds: the third layer, before any activation, of the
    activations, the transposed weight signs, the scale row and the bias row, entry by entry. -/
theorem region2_array (V : (c : Dev nD) → (b : Ref sig .tc) → Buf (Elt Ideal) ((c : Thread nD τ).loc b)) (c : Dev nD) :
    ((dat2 (F := Ideal) V c).arrAt 4 cfg2.N : S32768x512.Idx → EReal)
      = arr (fun r q => pre n2048 (mat (V c main_v25 : S32768x2048.Idx → EReal)) (mat (V c main_v34 : S2048x512.Idx → EReal))
            (row (V c main_v35 : S1x512.Idx → EReal)) (row (V c main_v36 : S1x512.Idx → EReal)) r q) :=
  (dat2 (F := Ideal) V c).arrAt_eq_of_cover 4
    (Region2.layerArr (V c main_v25) (V c main_v34) (V c main_v35) (V c main_v36))
    (fun t _ => Region2.flushed_eq V c t) Region2.covered

end Cert.KernelIdeal.Bridge
end
-- ==== Proof.LibRowRead.lean ====
/-
  Reading row-wise operations of an R × C matrix at one index, over the extended reals.

  A reduction over the column axis, read at row r, ranges over the entries (r, c), c < C: with a maximum body it is
  the fold of max from the initial value over them, with an add body the initial value plus their sum. A vector with
  one entry per row, made a column and spread along the rows, reads at (r, c) the vector's entry r; a vector with one
  entry per column, made a row and spread down the columns, reads at (r, c) the vector's entry c.
-/
import Idealize.ShloMosaic.PureOps.Reduce
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.LibRowRead

open Idealize.ShloMosaic Idealize.ShloMosaic.ValueIdx

/-- The row index r with the column coordinate k put back is (r, k). -/
theorem lift_row {R C : Nat} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  match c with
  | ⟨0, _⟩ => rfl
  | ⟨1, _⟩ => rfl

/-- The host's reduce with a maximum body over the columns, at row r: the fold of max over the row from the initial value. -/
theorem hostReduceMax_row {R C : Nat} (x : FVec Ideal ⟨2, ![R, C]⟩ .f32) (b : BitVec 32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x (constant (F := Ideal) (⟨0, ![]⟩ : Shape) .f32 b) h' hu (ix1 r)
      = (Finset.univ : Finset (Fin C)).fold max (Ideal.ofBits .f32 b) (fun c => x (ix2 r c)) := by
  rw [Host.reduce_eq_fold_single FloatOps.maximumf x _ h' h hu]
  have hf : (x ∘ h.lift (ix1 r)) = fun k : Fin C => x (ix2 r k) := funext fun k => congrArg x (lift_row h r k)
  exact congrArg (fun f => Finset.fold max (Ideal.ofBits .f32 b) f (Finset.univ : Finset (Fin C))) hf

/-- The host's reduce with an add body over the columns, at row r: the initial value plus the row's sum. -/
theorem hostReduceAdd_row {R C : Nat} {φ : FTy} (x : FVec Ideal ⟨2, ![R, C]⟩ φ) (init : (⟨0, ![]⟩ : Shape).Idx → Ideal φ)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd x init h' hu (ix1 r) = init (Shape.Idx.first hu) + ∑ c : Fin C, x (ix2 r c) := by
  rw [hostReduceAdd_apply, Ideal.hostReduceAdd_single h' h]
  refine congrArg (fun s => init (Shape.Idx.first hu) + s) ?_
  exact Finset.sum_congr rfl fun k _ => congrArg x (lift_row h r k)

/-- A vector of n entries made an n × 1 column reads, at (e, 0), its entry e. -/
theorem bcast_column_apply {α : Type} {n : Nat} (h : (⟨1, ![n]⟩ : Shape).BroadcastsInDim (⟨2, ![n, 1]⟩ : Shape) ![0])
    (v : (⟨1, ![n]⟩ : Shape).Idx → α) (e : Fin n) (z : Fin 1) :
    broadcastInDim (⟨2, ![n, 1]⟩ : Shape) ![0] h v (ix2 e z) = v (ix1 e) := by
  refine broadcastInDim_apply _ h v _ (ix1 e) fun a => ?_
  match a with
  | ⟨0, _⟩ =>
    show e.val = if n = 1 then 0 else e.val
    split
    · have := e.isLt; omega
    · rfl

/-- An R × 1 column spread along the rows reads, at (r, c), the column's entry r. -/
theorem bcast_alongRows_apply {α : Type} {R C : Nat} (h2 : (⟨2, ![R, 1]⟩ : Shape).BroadcastsInDim (⟨2, ![R, C]⟩ : Shape) ![0, 1])
    (w : (⟨2, ![R, 1]⟩ : Shape).Idx → α) (r : Fin R) (c : Fin C) :
    broadcastInDim (⟨2, ![R, C]⟩ : Shape) ![0, 1] h2 w (ix2 r c) = w (ix2 r (0 : Fin 1)) := by
  refine broadcastInDim_apply _ h2 w _ (ix2 r (0 : Fin 1)) fun a => ?_
  match a with
  | ⟨0, _⟩ =>
    show r.val = if R = 1 then 0 else r.val
    split
    · have := r.isLt; omega
    · rfl
  | ⟨1, _⟩ => rfl

/-- A vector with one entry per row, made a column and spread along the rows, reads at (r, c) its entry r. -/
theorem bcast_perRow_apply {α : Type} {R C : Nat} (h1 : (⟨1, ![R]⟩ : Shape).BroadcastsInDim (⟨2, ![R, 1]⟩ : Shape) ![0])
    (h2 : (⟨2, ![R, 1]⟩ : Shape).BroadcastsInDim (⟨2, ![R, C]⟩ : Shape) ![0, 1])
    (v : (⟨1, ![R]⟩ : Shape).Idx → α) (r : Fin R) (c : Fin C) :
    broadcastInDim (⟨2, ![R, C]⟩ : Shape) ![0, 1] h2 (broadcastInDim (⟨2, ![R, 1]⟩ : Shape) ![0] h1 v) (ix2 r c) = v (ix1 r) := by
  exact (bcast_alongRows_apply h2 _ r c).trans (bcast_column_apply h1 v r 0)

/-- A vector with one entry per column, made a row and spread down the columns, reads at (r, c) its entry c. -/
theorem bcast_perCol_apply {α : Type} {R C : Nat} (h1 : (⟨1, ![C]⟩ : Shape).BroadcastsInDim (⟨2, ![1, C]⟩ : Shape) ![1])
    (h2 : (⟨2, ![1, C]⟩ : Shape).BroadcastsInDim (⟨2, ![R, C]⟩ : Shape) ![0, 1])
    (v : (⟨1, ![C]⟩ : Shape).Idx → α) (r : Fin R) (c : Fin C) :
    broadcastInDim (⟨2, ![R, C]⟩ : Shape) ![0, 1] h2 (broadcastInDim (⟨2, ![1, C]⟩ : Shape) ![1] h1 v) (ix2 r c) = v (ix1 c) := by
  have hc : ∀ m : Nat, ∀ c : Fin C, c.val = if C = 1 then 0 else c.val := fun _ c => by
    split
    · have := c.isLt; omega
    · rfl
  refine (broadcastInDim_apply _ h2 _ _ (ix2 (0 : Fin 1) c) fun a => ?_).trans
    (broadcastInDim_apply _ h1 v _ (ix1 c) fun a => ?_)
  · match a with
    | ⟨0, _⟩ => rfl
    | ⟨1, _⟩ => exact hc 0 c
  · match a with
    | ⟨0, _⟩ => exact hc 0 c

end Cert.LibRowRead

end
-- ==== Proof.HostGlue.lean ====
/-
  What each region of the run finds in the arrays that host operations prepare for it.

  Before each of the three layers the weights are put in the form the layer's matrix product and scalings use:
  the sign matrix of W transposed (at (k, q) the sign of W (q, k)), the per-channel scale as a one-row matrix
  (at (0, q) the mean magnitude of row q of W, the row sum taken from zero and divided by the row width), the bias
  as a one-row matrix, and the activation's slope as a one-by-one matrix. The activations' array of the first layer
  is the first argument itself.

  The weights, biases and slope are arguments of the program. No host operation and no region writes an argument,
  so the second and third group, which run after a region has left its arrays, still read the launch contents.
-/
import proofs.«168489_j28200755265763_1_alg».proof.Proof.Gen.KernelIdeal.Frame
import proofs.«168489_j28200755265763_1_alg».proof.Proof.Spec
import proofs.«168489_j28200755265763_1_alg».proof.Proof.LibRowRead
import Idealize.ShloMosaic.Lib.ValueLayout
import Idealize.ShloMosaic.Lib.StableHlo.Run

set_option maxRecDepth 16384
noncomputable section

open Idealize.ShloMosaic Idealize.ShloMosaic.TcCoe Idealize.ShloMosaic.ValueIdx Idealize.SL.Sem Cert.Spec

namespace Cert.KernelIdeal.Bridge
open Cert.KernelIdeal Cert.KernelIdeal.Gen

variable (m : (ℓ : Loc nD τ sig) → Buf (Elt Ideal) ℓ) (ρ : Dev nD → PrngReg)

namespace HostGlue

/-! ## Two reads over an arbitrary matrix

A weight matrix W with R rows (channels) and C columns enters a layer in two forms. Its transposed signs: compare with
the splat of zero, choose between the splats of one and minus one, transpose, and convert (the conversion changes
nothing over the extended reals); at (k, q) this is the sign of W (q, k). Its per-channel scale: the row sums of the
absolute values taken from zero, divided by the splat of the row width, written as a one-row matrix; at (0, q) this is
the quotient of zero plus the sum over row q by the width. -/

/-- The transposed sign matrix read at (k, q). -/
theorem sign_read {R C : ℕ} (x : FVec Ideal ⟨2, ![R, C]⟩ .f32)
    (hb : (⟨0, ![]⟩ : Shape).BroadcastsInDim ⟨2, ![R, C]⟩ ![])
    (ht : (⟨2, ![R, C]⟩ : Shape).Transposes [1, 0] ⟨2, ![C, R]⟩) (hbits : FTy.bits .bf16 < FTy.bits .f32)
    (k : Fin C) (q : Fin R) :
    truncf .bf16 (transpose ⟨2, ![C, R]⟩ [1, 0]
        (select (cmpf .oge x (broadcastInDim ⟨2, ![R, C]⟩ ![] hb (constant (F := Ideal) ⟨0, ![]⟩ .f32 0x00000000#32)))
          (broadcastInDim ⟨2, ![R, C]⟩ ![] hb (constant (F := Ideal) ⟨0, ![]⟩ .f32 0x3F800000#32))
          (broadcastInDim ⟨2, ![R, C]⟩ ![] hb (constant (F := Ideal) ⟨0, ![]⟩ .f32 0xBF800000#32))) ht) hbits (ix2 k q)
      = sgn (x (ix2 q k)) := by
  refine (truncf_apply _ hbits _).trans ?_
  refine (transpose_ix2_apply _ ht k q).trans ?_
  rw [select_apply, cmpf_apply]
  simp only [broadcastInDim_scalar_apply]
  rfl

/-- The one-row scale matrix read at (0, q). -/
theorem scale_read {R C : ℕ} (x : FVec Ideal ⟨2, ![R, C]⟩ .f32) (n : BitVec 32)
    (h' : (⟨2, ![R, C]⟩ : Shape).ReducesTo [1] ⟨1, ![R]⟩) (hu : 0 < (⟨0, ![]⟩ : Shape).numel)
    (hb : (⟨0, ![]⟩ : Shape).BroadcastsInDim ⟨1, ![R]⟩ ![]) (hc : (⟨1, ![R]⟩ : Shape).ShapeCasts ⟨2, ![1, R]⟩) (q : Fin R) :
    shapeCast ⟨2, ![1, R]⟩
        (Host.divf (F := Ideal) (Host.reduceAdd (F := Ideal) (Host.absf (F := Ideal) x) (constant (F := Ideal) ⟨0, ![]⟩ .f32 0x00000000#32) h' hu)
          (broadcastInDim ⟨1, ![R]⟩ ![] hb (constant (F := Ideal) ⟨0, ![]⟩ .f32 n))) hc (ix2 (0 : Fin 1) q)
      = wscale (Ideal.ofBits .f32 n) (mat x) q := by
  refine (shapeCast_a_1a_apply _ hc 0 q).trans ?_
  rw [hostDivf_apply, Cert.LibRowRead.hostReduceAdd_row _ _ h' ⟨h'.1, Nat.one_pos, h'.2⟩ hu q, broadcastInDim_scalar_apply]
  rfl

/-! ## The arguments after the first and the second region

Region 0 writes none of the arrays W2, b2, W3, b3 or the slope, and no host operation before it does; region 1 and
the operations between the two regions write neither W3 nor b3. -/

open StableHlo in
theorem W4_main_arg3 (c : Dev nD) : W4 m ρ c (Proc.devRef .tc main_arg3) = m ((c.tc : Thread nD τ).loc main_arg3) := by
  rw [W4_of_ne m ρ c main_arg3 (by decide)]
  dsimp only [W3, W2, W1, W0, hostOps0_2, hostOps0_1, hostOps0]
  after_results

open StableHlo in
theorem W4_main_arg4 (c : Dev nD) : W4 m ρ c (Proc.devRef .tc main_arg4) = m ((c.tc : Thread nD τ).loc main_arg4) := by
  rw [W4_of_ne m ρ c main_arg4 (by decide)]
  dsimp only [W3, W2, W1, W0, hostOps0_2, hostOps0_1, hostOps0]
  after_results

open StableHlo in
theorem W4_main_arg5 (c : Dev nD) : W4 m ρ c (Proc.devRef .tc main_arg5) = m ((c.tc : Thread nD τ).loc main_arg5) := by
  rw [W4_of_ne m ρ c main_arg5 (by decide)]
  dsimp only [W3, W2, W1, W0, hostOps0_2, hostOps0_1, hostOps0]
  after_results

open StableHlo in
theorem W4_main_arg6 (c : Dev nD) : W4 m ρ c (Proc.devRef .tc main_arg6) = m ((c.tc : Thread nD τ).loc main_arg6) := by
  rw [W4_of_ne m ρ c main_arg6 (by decide)]
  dsimp only [W3, W2, W1, W0, hostOps0_2, hostOps0_1, hostOps0]
  after_results

open StableHlo in
theorem W4_main_arg7 (c : Dev nD) : W4 m ρ c (Proc.devRef .tc main_arg7) = m ((c.tc : Thread nD τ).loc main_arg7) := by
  rw [W4_of_ne m ρ c main_arg7 (by decide)]
  dsimp only [W3, W2, W1, W0, hostOps0_2, hostOps0_1, hostOps0]
  after_results

open StableHlo in
theorem W8_main_arg5 (c : Dev nD) : W8 m ρ c (Proc.devRef .tc main_arg5) = m ((c.tc : Thread nD τ).loc main_arg5) := by
  rw [W8_of_ne m ρ c main_arg5 (by decide)]
  dsimp only [W7, W6, W5, hostOps1_2, hostOps1_1, hostOps1]
  after_results
  exact W4_main_arg5 m ρ c

open StableHlo in
theorem W8_main_arg6 (c : Dev nD) : W8 m ρ c (Proc.devRef .tc main_arg6) = m ((c.tc : Thread nD τ).loc main_arg6) := by
  rw [W8_of_ne m ρ c main_arg6 (by decide)]
  dsimp only [W7, W6, W5, hostOps1_2, hostOps1_1, hostOps1]
  after_results
  exact W4_main_arg6 m ρ c

/-! ## The prepared arrays read at one index -/

theorem V3_s_at (c : Dev nD) (k : Fin 512) (q : Fin 2048) :
    (V3 m ρ c main_v8 : S512x2048.Idx → EReal) (ix2 k q)
      = sgn ((m ((c.tc : Thread nD τ).loc main_arg1) : S2048x512.Idx → EReal) (ix2 q k)) := by
  dsimp only [V3, W3, W2, W1, W0, hostOps0_2, hostOps0_1, hostOps0]
  after_results
  exact sign_read _ bcast_S_S2048x512 transposes_S2048x512_S512x2048_1_0 bitsLt_bf16_f32 k q

theorem V3_a_at (c : Dev nD) (q : Fin 2048) :
    (V3 m ρ c main_v9 : S1x2048.Idx → EReal) (ix2 (0 : Fin 1) q)
      = wscale n512 (mat (m ((c.tc : Thread nD τ).loc main_arg1) : S2048x512.Idx → EReal)) q := by
  dsimp only [V3, W3, W2, W1, W0, hostOps0_2, hostOps0_1, hostOps0]
  after_results
  exact scale_read _ 0x44000000#32 reducesTo_S2048x512_S2048_d1 h_S_ bcast_S_S2048 shapeCasts_S2048_S1x2048 q

theorem V3_b_at (c : Dev nD) (q : Fin 2048) :
    (V3 m ρ c main_v10 : S1x2048.Idx → EReal) (ix2 (0 : Fin 1) q) = (m ((c.tc : Thread nD τ).loc main_arg2) : S2048.Idx → EReal) (ix1 q) := by
  dsimp only [V3, W3, W2, W1, W0, hostOps0_2, hostOps0_1, hostOps0]
  after_results
  exact shapeCast_a_1a_apply _ shapeCasts_S2048_S1x2048 0 q

theorem V7_s_at (c : Dev nD) (k : Fin 2048) (q : Fin 2048) :
    (V7 m ρ c main_v21 : S2048x2048.Idx → EReal) (ix2 k q)
      = sgn ((m ((c.tc : Thread nD τ).loc main_arg3) : S2048x2048.Idx → EReal) (ix2 q k)) := by
  dsimp only [V7, W7, W6, W5, hostOps1_2, hostOps1_1, hostOps1]
  after_results
  rw [W4_main_arg3 m ρ c]
  exact sign_read _ bcast_S_S2048x2048 transposes_S2048x2048_S2048x2048_1_0 bitsLt_bf16_f32 k q

theorem V7_a_at (c : Dev nD) (q : Fin 2048) :
    (V7 m ρ c main_v22 : S1x2048.Idx → EReal) (ix2 (0 : Fin 1) q)
      = wscale n2048 (mat (m ((c.tc : Thread nD τ).loc main_arg3) : S2048x2048.Idx → EReal)) q := by
  dsimp only [V7, W7, W6, W5, hostOps1_2, hostOps1_1, hostOps1]
  after_results
  rw [W4_main_arg3 m ρ c]
  exact scale_read _ 0x45000000#32 reducesTo_S2048x2048_S2048_d1 h_S_ bcast_S_S2048 shapeCasts_S2048_S1x2048 q

theorem V7_b_at (c : Dev nD) (q : Fin 2048) :
    (V7 m ρ c main_v23 : S1x2048.Idx → EReal) (ix2 (0 : Fin 1) q) = (m ((c.tc : Thread nD τ).loc main_arg4) : S2048.Idx → EReal) (ix1 q) := by
  dsimp only [V7, W7, W6, W5, hostOps1_2, hostOps1_1, hostOps1]
  after_results
  rw [W4_main_arg4 m ρ c]
  exact shapeCast_a_1a_apply _ shapeCasts_S2048_S1x2048 0 q

theorem V11_s_at (c : Dev nD) (k : Fin 2048) (q : Fin 512) :
    (V11 m ρ c main_v34 : S2048x512.Idx → EReal) (ix2 k q)
      = sgn ((m ((c.tc : Thread nD τ).loc main_arg5) : S512x2048.Idx → EReal) (ix2 q k)) := by
  dsimp only [V11, W11, W10, W9, hostOps2_2, hostOps2_1, hostOps2]
  after_results
  rw [W8_main_arg5 m ρ c]
  exact sign_read _ bcast_S_S512x2048 transposes_S512x2048_S2048x512_1_0 bitsLt_bf16_f32 k q

theorem V11_a_at (c : Dev nD) (q : Fin 512) :
    (V11 m ρ c main_v35 : S1x512.Idx → EReal) (ix2 (0 : Fin 1) q)
      = wscale n2048 (mat (m ((c.tc : Thread nD τ).loc main_arg5) : S512x2048.Idx → EReal)) q := by
  dsimp only [V11, W11, W10, W9, hostOps2_2, hostOps2_1, hostOps2]
  after_results
  rw [W8_main_arg5 m ρ c]
  exact scale_read _ 0x45000000#32 reducesTo_S512x2048_S512_d1 h_S_ bcast_S_S512 shapeCasts_S512_S1x512 q

theorem V11_b_at (c : Dev nD) (q : Fin 512) :
    (V11 m ρ c main_v36 : S1x512.Idx → EReal) (ix2 (0 : Fin 1) q) = (m ((c.tc : Thread nD τ).loc main_arg6) : S512.Idx → EReal) (ix1 q) := by
  dsimp only [V11, W11, W10, W9, hostOps2_2, hostOps2_1, hostOps2]
  after_results
  rw [W8_main_arg6 m ρ c]
  exact shapeCast_a_1a_apply _ shapeCasts_S512_S1x512 0 q

end HostGlue

open HostGlue

/-! ## The first layer's arrays -/

theorem V3_x (c : Dev nD) : (V3 m ρ c main_arg0 : S32768x512.Idx → EReal) = m ((c.tc : Thread nD τ).loc main_arg0) := by
  dsimp only [V3, W3, W2, W1, W0, hostOps0_2, hostOps0_1, hostOps0]
  after_results

theorem V3_s (c : Dev nD) : mat (V3 m ρ c main_v8 : S512x2048.Idx → EReal) = wsign (mat (m ((c.tc : Thread nD τ).loc main_arg1) : S2048x512.Idx → EReal)) := by
  funext k q; exact V3_s_at m ρ c k q

theorem V3_a (c : Dev nD) : row (V3 m ρ c main_v9 : S1x2048.Idx → EReal) = wscale n512 (mat (m ((c.tc : Thread nD τ).loc main_arg1) : S2048x512.Idx → EReal)) := by
  funext q; exact V3_a_at m ρ c q

theorem V3_b (c : Dev nD) : row (V3 m ρ c main_v10 : S1x2048.Idx → EReal) = vec (m ((c.tc : Thread nD τ).loc main_arg2) : S2048.Idx → EReal) := by
  funext q; exact V3_b_at m ρ c q

theorem V3_p (c : Dev nD) : (V3 m ρ c main_v11 : S1x1.Idx → EReal) (ix2 0 0) = (m ((c.tc : Thread nD τ).loc main_arg7) : S1.Idx → EReal) (ix1 0) := by
  dsimp only [V3, W3, W2, W1, W0, hostOps0_2, hostOps0_1, hostOps0]
  after_results
  exact shapeCast_a_1a_apply _ shapeCasts_S1_S1x1 0 0

/-! ## The second layer's arrays

The operations run after region 0 and read W2, b2 and the slope, which still hold their launch contents. -/

theorem V7_s (c : Dev nD) : mat (V7 m ρ c main_v21 : S2048x2048.Idx → EReal) = wsign (mat (m ((c.tc : Thread nD τ).loc main_arg3) : S2048x2048.Idx → EReal)) := by
  funext k q; exact V7_s_at m ρ c k q

theorem V7_a (c : Dev nD) : row (V7 m ρ c main_v22 : S1x2048.Idx → EReal) = wscale n2048 (mat (m ((c.tc : Thread nD τ).loc main_arg3) : S2048x2048.Idx → EReal)) := by
  funext q; exact V7_a_at m ρ c q

theorem V7_b (c : Dev nD) : row (V7 m ρ c main_v23 : S1x2048.Idx → EReal) = vec (m ((c.tc : Thread nD τ).loc main_arg4) : S2048.Idx → EReal) := by
  funext q; exact V7_b_at m ρ c q

theorem V7_p (c : Dev nD) : (V7 m ρ c main_v24 : S1x1.Idx → EReal) (ix2 0 0) = (m ((c.tc : Thread nD τ).loc main_arg7) : S1.Idx → EReal) (ix1 0) := by
  dsimp only [V7, W7, W6, W5, hostOps1_2, hostOps1_1, hostOps1]
  after_results
  rw [W4_main_arg7 m ρ c]
  exact shapeCast_a_1a_apply _ shapeCasts_S1_S1x1 0 0

/-! ## The third layer's arrays

The operations run after region 1 and read W3 and b3, which still hold their launch contents. -/

theorem V11_s (c : Dev nD) : mat (V11 m ρ c main_v34 : S2048x512.Idx → EReal) = wsign (mat (m ((c.tc : Thread nD τ).loc main_arg5) : S512x2048.Idx → EReal)) := by
  funext k q; exact V11_s_at m ρ c k q

theorem V11_a (c : Dev nD) : row (V11 m ρ c main_v35 : S1x512.Idx → EReal) = wscale n2048 (mat (m ((c.tc : Thread nD τ).loc main_arg5) : S512x2048.Idx → EReal)) := by
  funext q; exact V11_a_at m ρ c q

theorem V11_b (c : Dev nD) : row (V11 m ρ c main_v36 : S1x512.Idx → EReal) = vec (m ((c.tc : Thread nD τ).loc main_arg6) : S512.Idx → EReal) := by
  funext q; exact V11_b_at m ρ c q

end Cert.KernelIdeal.Bridge
end
-- ==== Proof.PassThrough.lean ====
import proofs.«168489_j28200755265763_1_alg».proof.Proof.Gen.KernelIdeal.Frame
import proofs.«168489_j28200755265763_1_alg».proof.Proof.Spec

/-! The arrays that pass from one kernel region to the next.

The first region's output array is the second region's first input, and the second region's output array is the
third region's first input. Between two regions only host operations run, and each of them writes a buffer of its
own (a weight's sign matrix, a scale row, a reshaped bias, constants): none writes a region's output array. So the
contents a later region finds in that array are exactly what the earlier region's write-backs left there, and the
program's result array holds what the last region's write-backs left. -/

set_option maxRecDepth 16384
noncomputable section

open Idealize.ShloMosaic Idealize.ShloMosaic.TcCoe Idealize.ShloMosaic.ValueIdx Idealize.SL.Sem Cert.Spec

namespace Cert.KernelIdeal.Bridge
open Cert.KernelIdeal Cert.KernelIdeal.Gen

variable (m : (ℓ : Loc nD τ sig) → Buf (Elt Ideal) ℓ) (ρ : Dev nD → PrngReg)

/-- The second region's first input array holds what the first region left in its output array: the three host
    stretches between them write other buffers only. -/
theorem V7_x (c : Dev nD) : (V7 m ρ c main_v12 : S32768x2048.Idx → EReal) = (dat0 (F := Ideal) (V3 m ρ) c).arrAt 5 cfg0.N :=
  calc W7 m ρ c (Proc.devRef .tc main_v12)
    _ = W6 m ρ c (Proc.devRef .tc main_v12) := StableHlo.after_of_forall_not_mem (b := Proc.devRef .tc main_v12) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v12) := StableHlo.after_of_forall_not_mem (b := Proc.devRef .tc main_v12) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (F := Ideal) (V3 m ρ) c).arrAt 5 cfg0.N := W4_arr m ρ c 5

/-- The third region's first input array holds what the second region left in its output array. -/
theorem V11_x (c : Dev nD) : (V11 m ρ c main_v25 : S32768x2048.Idx → EReal) = (dat1 (F := Ideal) (V7 m ρ) c).arrAt 5 cfg1.N :=
  calc W11 m ρ c (Proc.devRef .tc main_v25)
    _ = W10 m ρ c (Proc.devRef .tc main_v25) := StableHlo.after_of_forall_not_mem (b := Proc.devRef .tc main_v25) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v25) := StableHlo.after_of_forall_not_mem (b := Proc.devRef .tc main_v25) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v25) := StableHlo.after_of_forall_not_mem (b := Proc.devRef .tc main_v25) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat1 (F := Ideal) (V7 m ρ) c).arrAt 5 cfg1.N := W8_arr m ρ c 5

/-- The result array holds what the third region's write-backs left in it. -/
theorem out_eq (c : Dev nD) : (W12 m ρ c (Proc.devRef .tc main_v37) : S32768x512.Idx → EReal) = (dat2 (F := Ideal) (V11 m ρ) c).arrAt 4 cfg2.N :=
  W12_arr m ρ c 4

end Cert.KernelIdeal.Bridge
end
-- ==== Proof.RefNet.lean ====
/-
  The reference program's result is the network of `Spec`.

  The reference is three layers of one pattern. Each forms the sign matrix of its activations (compare with zero,
  choose between the splats 1 and −1), multiplies it with the transposed sign matrix of its weights, scales the
  product by the mean magnitude of the activations' row (the row's sum of magnitudes, taken from zero, over the
  row's width) and by the mean magnitude of the weight's row (the same mean, one number per output channel), and
  adds the channel's bias. The first two layers end with the activation v ↦ v if v > 0, p · v otherwise, p the
  single entry of a one-element array.

  The pattern is written once, over arbitrary sizes R × K (activations) and C × K (weights), as a composed term of
  array operations; read at an entry (r, c) it is `Spec.pre` (and `Spec.act` for the activation). The reference's
  result is that pattern three times over, so its value is `Spec.net`.
-/
import proofs.«168489_j28200755265763_1_alg».proof.Proof.RefRun
import proofs.«168489_j28200755265763_1_alg».proof.Proof.Spec
import proofs.«168489_j28200755265763_1_alg».proof.Proof.LibDot
import proofs.«168489_j28200755265763_1_alg».proof.Proof.LibRowRead
import Idealize.ShloMosaic.Lib.ValueLayout

set_option maxRecDepth 16384

noncomputable section

open scoped BigOperators

namespace Cert.ReferenceIdeal.Bridge

open Idealize.ShloMosaic Idealize.ShloMosaic.TcCoe Idealize.ShloMosaic.ValueIdx Idealize.SL.Sem Cert.Spec

/-- The shape of a single number. -/
abbrev S0 : Shape := ⟨0, ![]⟩

section Pattern

variable {R K C : Nat}

/-- The sign array of an array: 1 where the entry is at least zero, −1 elsewhere. -/
def sgnT {s : Shape} (h : S0.BroadcastsInDim s (![] : Fin 0 → Fin s.rank)) (x : FVec Ideal s .f32) : FVec Ideal s .f32 :=
  id (select (cmpf .oge x (broadcastInDim s ![] h (constant S0 .f32 0x00000000#32)))
    (broadcastInDim s ![] h (constant S0 .f32 0x3F800000#32)) (broadcastInDim s ![] h (constant S0 .f32 0xBF800000#32)))

/-- Entry by entry the sign array is `Spec.sgn`. -/
theorem sgnT_apply {s : Shape} (h : S0.BroadcastsInDim s (![] : Fin 0 → Fin s.rank)) (x : FVec Ideal s .f32) (i : s.Idx) :
    sgnT h x i = sgn (x i) := rfl

/-- A layer before its activation, as a composed term: activations x, weights W, bias b; w is the word of the
    rows' width as a float. -/
def preT (w : BitVec 32)
    (hx : S0.BroadcastsInDim ⟨2, ![R, K]⟩ ![]) (hw : S0.BroadcastsInDim ⟨2, ![C, K]⟩ ![])
    (ht : (⟨2, ![C, K]⟩ : Shape).Transposes [1, 0] ⟨2, ![K, C]⟩)
    (d : DotDims ⟨2, ![R, K]⟩ ⟨2, ![K, C]⟩ ⟨2, ![R, C]⟩)
    (hxr : (⟨2, ![R, K]⟩ : Shape).ReducesTo [1] ⟨1, ![R]⟩) (hwr : (⟨2, ![C, K]⟩ : Shape).ReducesTo [1] ⟨1, ![C]⟩)
    (h0 : 0 < S0.numel)
    (hcol : (⟨1, ![R]⟩ : Shape).BroadcastsInDim ⟨2, ![R, 1]⟩ ![0])
    (hn1 : S0.BroadcastsInDim ⟨2, ![R, 1]⟩ ![])
    (hrows : (⟨2, ![R, 1]⟩ : Shape).BroadcastsInDim ⟨2, ![R, C]⟩ ![0, 1])
    (hnC : S0.BroadcastsInDim ⟨1, ![C]⟩ ![])
    (hrow : (⟨1, ![C]⟩ : Shape).BroadcastsInDim ⟨2, ![1, C]⟩ ![1])
    (hdown : (⟨2, ![1, C]⟩ : Shape).BroadcastsInDim ⟨2, ![R, C]⟩ ![0, 1])
    (x : FVec Ideal ⟨2, ![R, K]⟩ .f32) (W : FVec Ideal ⟨2, ![C, K]⟩ .f32) (b : FVec Ideal ⟨1, ![C]⟩ .f32) :
    FVec Ideal ⟨2, ![R, C]⟩ .f32 :=
  addf (mulf (mulf (Host.dotGeneral d none (sgnT hx x) (transpose ⟨2, ![K, C]⟩ [1, 0] (sgnT hw W) ht))
        (broadcastInDim ⟨2, ![R, C]⟩ ![0, 1] hrows
          (Host.divf (broadcastInDim ⟨2, ![R, 1]⟩ ![0] hcol (Host.reduceAdd (Host.absf x) (constant S0 .f32 0x00000000#32) hxr h0))
            (broadcastInDim ⟨2, ![R, 1]⟩ ![] hn1 (constant S0 .f32 w)))))
      (broadcastInDim ⟨2, ![R, C]⟩ ![0, 1] hdown (broadcastInDim ⟨2, ![1, C]⟩ ![1] hrow
        (Host.divf (Host.reduceAdd (Host.absf W) (constant S0 .f32 0x00000000#32) hwr h0)
          (broadcastInDim ⟨1, ![C]⟩ ![] hnC (constant S0 .f32 w))))))
    (broadcastInDim ⟨2, ![R, C]⟩ ![0, 1] hdown (broadcastInDim ⟨2, ![1, C]⟩ ![1] hrow b))

/-- Read at (r, c), the layer term is `Spec.pre` over the activations, the transposed weight signs, the weight's
    per-channel scale and the bias. -/
theorem preT_apply (w : BitVec 32)
    (hx : S0.BroadcastsInDim ⟨2, ![R, K]⟩ ![]) (hw : S0.BroadcastsInDim ⟨2, ![C, K]⟩ ![])
    (ht : (⟨2, ![C, K]⟩ : Shape).Transposes [1, 0] ⟨2, ![K, C]⟩)
    (d : DotDims ⟨2, ![R, K]⟩ ⟨2, ![K, C]⟩ ⟨2, ![R, C]⟩)
    (hxr : (⟨2, ![R, K]⟩ : Shape).ReducesTo [1] ⟨1, ![R]⟩) (hwr : (⟨2, ![C, K]⟩ : Shape).ReducesTo [1] ⟨1, ![C]⟩)
    (h0 : 0 < S0.numel)
    (hcol : (⟨1, ![R]⟩ : Shape).BroadcastsInDim ⟨2, ![R, 1]⟩ ![0])
    (hn1 : S0.BroadcastsInDim ⟨2, ![R, 1]⟩ ![])
    (hrows : (⟨2, ![R, 1]⟩ : Shape).BroadcastsInDim ⟨2, ![R, C]⟩ ![0, 1])
    (hnC : S0.BroadcastsInDim ⟨1, ![C]⟩ ![])
    (hrow : (⟨1, ![C]⟩ : Shape).BroadcastsInDim ⟨2, ![1, C]⟩ ![1])
    (hdown : (⟨2, ![1, C]⟩ : Shape).BroadcastsInDim ⟨2, ![R, C]⟩ ![0, 1])
    (hxR : (⟨2, ![R, K]⟩ : Shape).Reduces [1] ⟨1, ![R]⟩) (hwR : (⟨2, ![C, K]⟩ : Shape).Reduces [1] ⟨1, ![C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ .f32) (W : FVec Ideal ⟨2, ![C, K]⟩ .f32) (b : FVec Ideal ⟨1, ![C]⟩ .f32)
    (r : Fin R) (c : Fin C) :
    preT w hx hw ht d hxr hwr h0 hcol hn1 hrows hnC hrow hdown x W b (ix2 r c)
      = pre (Ideal.ofBits .f32 w) (mat x) (wsign (mat W)) (wscale (Ideal.ofBits .f32 w) (mat W)) (vec b) r c := by
  -- the product of the sign matrices
  have hD : Host.dotGeneral d none (sgnT hx x) (transpose ⟨2, ![K, C]⟩ [1, 0] (sgnT hw W) ht) (ix2 r c)
      = ∑ k : Fin K, sgn (x (ix2 r k)) * sgn (W (ix2 c k)) := by
    refine (LibDot.dotGeneral_at d hl hr hln hrn hlb hrb none .single _ _ r c).trans (Finset.sum_congr rfl fun k _ => ?_)
    rw [transpose_ix2_apply]
    rfl
  -- the mean magnitude of the activations' row
  have hM : broadcastInDim ⟨2, ![R, C]⟩ ![0, 1] hrows
        (Host.divf (broadcastInDim ⟨2, ![R, 1]⟩ ![0] hcol (Host.reduceAdd (Host.absf x) (constant S0 .f32 0x00000000#32) hxr h0))
          (broadcastInDim ⟨2, ![R, 1]⟩ ![] hn1 (constant S0 .f32 w))) (ix2 r c)
      = Ideal.div (∑ k : Fin K, absE (x (ix2 r k))) (Ideal.ofBits .f32 w) := by
    refine (LibRowRead.bcast_alongRows_apply hrows _ r c).trans ?_
    show Ideal.div (broadcastInDim ⟨2, ![R, 1]⟩ ![0] hcol (Host.reduceAdd (Host.absf x) (constant S0 .f32 0x00000000#32) hxr h0) (ix2 r 0))
      (Ideal.ofBits .f32 w) = _
    rw [LibRowRead.bcast_column_apply, LibRowRead.hostReduceAdd_row _ _ hxr hxR h0 r]
    show Ideal.div (Ideal.ofBits .f32 0x00000000#32 + ∑ k : Fin K, absE (x (ix2 r k))) _ = _
    rw [Ideal.ofBits_zero_f32, zero_add]
  -- the mean magnitude of the weight's row
  have hA : broadcastInDim ⟨2, ![R, C]⟩ ![0, 1] hdown (broadcastInDim ⟨2, ![1, C]⟩ ![1] hrow
        (Host.divf (Host.reduceAdd (Host.absf W) (constant S0 .f32 0x00000000#32) hwr h0)
          (broadcastInDim ⟨1, ![C]⟩ ![] hnC (constant S0 .f32 w)))) (ix2 r c)
      = wscale (Ideal.ofBits .f32 w) (mat W) c := by
    refine (LibRowRead.bcast_perCol_apply hrow hdown _ r c).trans ?_
    show Ideal.div (Host.reduceAdd (Host.absf W) (constant S0 .f32 0x00000000#32) hwr h0 (ix1 c)) (Ideal.ofBits .f32 w) = _
    rw [LibRowRead.hostReduceAdd_row _ _ hwr hwR h0 c]
    rfl
  -- the bias
  have hB : broadcastInDim ⟨2, ![R, C]⟩ ![0, 1] hdown (broadcastInDim ⟨2, ![1, C]⟩ ![1] hrow b) (ix2 r c) = vec b c :=
    LibRowRead.bcast_perCol_apply hrow hdown b r c
  unfold preT
  rw [addf_apply, mulf_apply, mulf_apply, hD, hM, hA, hB]
  rfl

/-- The activation as a composed term: v where v > 0, the slope times v elsewhere; the slope is the single entry of p. -/
def actT (hz : S0.BroadcastsInDim ⟨2, ![R, C]⟩ ![])
    (hp1 : (⟨1, ![1]⟩ : Shape).BroadcastsInDim ⟨2, ![1, 1]⟩ ![1])
    (hp2 : (⟨2, ![1, 1]⟩ : Shape).BroadcastsInDim ⟨2, ![R, C]⟩ ![0, 1])
    (p : FVec Ideal ⟨1, ![1]⟩ .f32) (v : FVec Ideal ⟨2, ![R, C]⟩ .f32) : FVec Ideal ⟨2, ![R, C]⟩ .f32 :=
  select (cmpf .ogt v (broadcastInDim ⟨2, ![R, C]⟩ ![] hz (constant S0 .f32 0x00000000#32))) v
    (mulf (broadcastInDim ⟨2, ![R, C]⟩ ![0, 1] hp2 (broadcastInDim ⟨2, ![1, 1]⟩ ![1] hp1 p)) v)

/-- A one-element array spread over a whole matrix reads its entry everywhere. -/
theorem bcast_single_apply {α : Type}
    (hp1 : (⟨1, ![1]⟩ : Shape).BroadcastsInDim ⟨2, ![1, 1]⟩ ![1])
    (hp2 : (⟨2, ![1, 1]⟩ : Shape).BroadcastsInDim ⟨2, ![R, C]⟩ ![0, 1])
    (p : (⟨1, ![1]⟩ : Shape).Idx → α) (r : Fin R) (c : Fin C) :
    broadcastInDim ⟨2, ![R, C]⟩ ![0, 1] hp2 (broadcastInDim ⟨2, ![1, 1]⟩ ![1] hp1 p) (ix2 r c) = p (ix1 0) := by
  refine (broadcastInDim_apply _ hp2 _ _ (ix2 (0 : Fin 1) (0 : Fin 1)) fun a => ?_).trans
    (broadcastInDim_apply _ hp1 p _ (ix1 (0 : Fin 1)) fun a => ?_)
  · match a with
    | ⟨0, _⟩ => rfl
    | ⟨1, _⟩ => rfl
  · match a with
    | ⟨0, _⟩ => rfl

/-- Read at (r, c), the activation term is `Spec.act` with the slope p(0). -/
theorem actT_apply (hz : S0.BroadcastsInDim ⟨2, ![R, C]⟩ ![])
    (hp1 : (⟨1, ![1]⟩ : Shape).BroadcastsInDim ⟨2, ![1, 1]⟩ ![1])
    (hp2 : (⟨2, ![1, 1]⟩ : Shape).BroadcastsInDim ⟨2, ![R, C]⟩ ![0, 1])
    (p : FVec Ideal ⟨1, ![1]⟩ .f32) (v : FVec Ideal ⟨2, ![R, C]⟩ .f32) (r : Fin R) (c : Fin C) :
    actT hz hp1 hp2 p v (ix2 r c) = act (p (ix1 0)) (v (ix2 r c)) := by
  unfold actT
  rw [select_apply, mulf_apply, bcast_single_apply]
  rfl

end Pattern

open Cert.ReferenceIdeal Cert.ReferenceIdeal.Gen Cert.ReferenceIdeal.Value

section Reference

variable (m : (ℓ : Loc nD τ sig) → Buf (Elt Ideal) ℓ) (c : Dev nD)

/-- The first layer's output: 32768 samples, 512 features in, 2048 out. -/
def out1 : FVec Ideal ⟨2, ![32768, 2048]⟩ .f32 :=
  actT bcast_S_S32768x2048 bcast_S1_S1x1_1 bcast_S1x1_S32768x2048_0_1 (m ((c.tc : Thread nD τ).loc main_arg7))
    (preT 0x44000000#32 bcast_S_S32768x512 bcast_S_S2048x512 transposes_S2048x512_S512x2048_1_0
      dot_S32768x512_S512x2048_S32768x2048_1_0_0_1_n_n reducesTo_S32768x512_S32768_d1 reducesTo_S2048x512_S2048_d1 h_S_
      bcast_S32768_S32768x1_0 bcast_S_S32768x1 bcast_S32768x1_S32768x2048_0_1 bcast_S_S2048 bcast_S2048_S1x2048_1
      bcast_S1x2048_S32768x2048_0_1
      (m ((c.tc : Thread nD τ).loc main_arg0)) (m ((c.tc : Thread nD τ).loc main_arg1)) (m ((c.tc : Thread nD τ).loc main_arg2)))

/-- The second layer's output: 2048 features in, 2048 out. -/
def out2 : FVec Ideal ⟨2, ![32768, 2048]⟩ .f32 :=
  actT bcast_S_S32768x2048 bcast_S1_S1x1_1 bcast_S1x1_S32768x2048_0_1 (m ((c.tc : Thread nD τ).loc main_arg7))
    (preT 0x45000000#32 bcast_S_S32768x2048 bcast_S_S2048x2048 transposes_S2048x2048_S2048x2048_1_0
      dot_S32768x2048_S2048x2048_S32768x2048_1_0_0_1_n_n reducesTo_S32768x2048_S32768_d1 reducesTo_S2048x2048_S2048_d1 h_S_
      bcast_S32768_S32768x1_0 bcast_S_S32768x1 bcast_S32768x1_S32768x2048_0_1 bcast_S_S2048 bcast_S2048_S1x2048_1
      bcast_S1x2048_S32768x2048_0_1
      (out1 m c) (m ((c.tc : Thread nD τ).loc main_arg3)) (m ((c.tc : Thread nD τ).loc main_arg4)))

/-- The reference's result is the third layer's pattern, without activation, over the second layer's output. -/
theorem res_eq_pattern :
    (res_main_v92 (F := Ideal) m c : S32768x512.Idx → EReal)
      = preT 0x45000000#32 bcast_S_S32768x2048 bcast_S_S512x2048 transposes_S512x2048_S2048x512_1_0
          dot_S32768x2048_S2048x512_S32768x512_1_0_0_1_n_n reducesTo_S32768x2048_S32768_d1 reducesTo_S512x2048_S512_d1 h_S_
          bcast_S32768_S32768x1_0 bcast_S_S32768x1 bcast_S32768x1_S32768x512_0_1 bcast_S_S512 bcast_S512_S1x512_1
          bcast_S1x512_S32768x512_0_1
          (out2 m c) (m ((c.tc : Thread nD τ).loc main_arg5)) (m ((c.tc : Thread nD τ).loc main_arg6)) := rfl

end Reference

section Value

variable (m : (ℓ : Loc nD τ sig) → Buf (Elt Ideal) ℓ) (c : Dev nD)

/-- The first layer's output is `Spec.layer` over the first three arguments and the slope. -/
theorem out1_eq :
    out1 m c = arr (layer n512 ((m ((c.tc : Thread nD τ).loc main_arg7) : S1.Idx → EReal) (ix1 0))
      (mat (m ((c.tc : Thread nD τ).loc main_arg0) : S32768x512.Idx → EReal))
      (mat (m ((c.tc : Thread nD τ).loc main_arg1) : S2048x512.Idx → EReal))
      (vec (m ((c.tc : Thread nD τ).loc main_arg2) : S2048.Idx → EReal))) := by
  funext i
  obtain ⟨r, q, rfl⟩ : ∃ r q, i = ix2 r q := ⟨i 0, i 1, eq_ix2 i⟩
  unfold out1
  rw [actT_apply, preT_apply _ _ _ _ _ _ _ _ _ _ _ _ _ _ (by decide) (by decide) rfl rfl rfl rfl rfl rfl]
  rfl

/-- The second layer's output is `Spec.layer` over the first layer's. -/
theorem out2_eq :
    out2 m c = arr (layer n2048 ((m ((c.tc : Thread nD τ).loc main_arg7) : S1.Idx → EReal) (ix1 0))
      (layer n512 ((m ((c.tc : Thread nD τ).loc main_arg7) : S1.Idx → EReal) (ix1 0))
        (mat (m ((c.tc : Thread nD τ).loc main_arg0) : S32768x512.Idx → EReal))
        (mat (m ((c.tc : Thread nD τ).loc main_arg1) : S2048x512.Idx → EReal))
        (vec (m ((c.tc : Thread nD τ).loc main_arg2) : S2048.Idx → EReal)))
      (mat (m ((c.tc : Thread nD τ).loc main_arg3) : S2048x2048.Idx → EReal))
      (vec (m ((c.tc : Thread nD τ).loc main_arg4) : S2048.Idx → EReal))) := by
  funext i
  obtain ⟨r, q, rfl⟩ : ∃ r q, i = ix2 r q := ⟨i 0, i 1, eq_ix2 i⟩
  unfold out2
  rw [actT_apply, preT_apply _ _ _ _ _ _ _ _ _ _ _ _ _ _ (by decide) (by decide) rfl rfl rfl rfl rfl rfl, out1_eq]
  rfl

end Value

/-- The reference's result is the network. -/
theorem ref_net (m : (ℓ : Loc nD τ sig) → Buf (Elt Ideal) ℓ) (c : Dev nD) :
    (res_main_v92 (F := Ideal) m c : S32768x512.Idx → EReal)
      = arr (net (mat (m ((c.tc : Thread nD τ).loc main_arg0) : S32768x512.Idx → EReal))
          (mat (m ((c.tc : Thread nD τ).loc main_arg1) : S2048x512.Idx → EReal)) (vec (m ((c.tc : Thread nD τ).loc main_arg2) : S2048.Idx → EReal))
          (mat (m ((c.tc : Thread nD τ).loc main_arg3) : S2048x2048.Idx → EReal)) (vec (m ((c.tc : Thread nD τ).loc main_arg4) : S2048.Idx → EReal))
          (mat (m ((c.tc : Thread nD τ).loc main_arg5) : S512x2048.Idx → EReal)) (vec (m ((c.tc : Thread nD τ).loc main_arg6) : S512.Idx → EReal))
          ((m ((c.tc : Thread nD τ).loc main_arg7) : S1.Idx → EReal) (ix1 0))) := by
  refine (res_eq_pattern m c).trans ?_
  funext i
  obtain ⟨r, q, rfl⟩ : ∃ r q, i = ix2 r q := ⟨i 0, i 1, eq_ix2 i⟩
  rw [preT_apply _ _ _ _ _ _ _ _ _ _ _ _ _ _ (by decide) (by decide) rfl rfl rfl rfl rfl rfl, out2_eq]
  rfl

end Cert.ReferenceIdeal.Bridge

end
-- ==== Proof.lean ====
/-
  The three binarized layers, as three chained kernels, against their plain reference: equal results over the
  extended reals.

  Each layer maps activations x (one row per sample), a weight matrix W (one row per output channel), a bias b and a
  slope p to

      act p ( ((∑ₖ sgn x(r,k) · sgn W(c,k)) · (∑ₖ |x(r,k)| / n)) · (∑ₖ |W(c,k)| / n) + b(c) ),

  sgn v = +1 for v ≥ 0 and −1 otherwise, act p v = v for v > 0 and p · v otherwise (the last layer has no act); `Spec.net`
  is the three layers composed. The reference computes exactly these operations on whole arrays. The kernel program
  prepares, on the host, the transposed sign matrix of each W, its per-channel mean magnitude and the reshaped bias and
  slope, and runs one kernel region per layer over blocks of 1024, 512 and 1024 samples: a block's rows of the output
  depend on the same rows of the input only, so the blocks are restrictions of one whole-array function, and the next
  region reads what the previous one wrote.

  No algebraic law joins the two sides beyond reading a matrix product and a row sum as finite sums (and 0 + s = s for
  the reference's row sums, which start from the float zero): both programs apply the same operations in the same order
  with the same literals, and a change of float format is the identity over the extended reals. So the precondition
  (finite inputs) is never opened.

  Modules: Spec (the network), Payload (a kernel body's stored value at an entry), Region0 / Region1 / Region2 (a
  region's output array from its blocks), HostGlue (what the host operations before each region leave), PassThrough
  (the arrays handed from region to region), ValueRun (the kernel program's run with its result named), RefNet (the
  reference's result is the network).
-/
import proofs.«168489_j28200755265763_1_alg».proof.Defs
import proofs.«168489_j28200755265763_1_alg».proof.Proof.Gen.Kernel
import proofs.«168489_j28200755265763_1_alg».proof.Proof.Gen.Kernel.Skeleton
import proofs.«168489_j28200755265763_1_alg».proof.Proof.Gen.Kernel.Launch
import proofs.«168489_j28200755265763_1_alg».proof.Proof.Gen.Kernel.Points
import proofs.«168489_j28200755265763_1_alg».proof.Proof.Gen.Kernel.Frame
import proofs.«168489_j28200755265763_1_alg».proof.Proof.Gen.KernelIdeal
import proofs.«168489_j28200755265763_1_alg».proof.Proof.Gen.KernelIdeal.Skeleton
import proofs.«168489_j28200755265763_1_alg».proof.Proof.Gen.KernelIdeal.Launch
import proofs.«168489_j28200755265763_1_alg».proof.Proof.Gen.KernelIdeal.Points
import proofs.«168489_j28200755265763_1_alg».proof.Proof.Gen.KernelIdeal.Frame
import proofs.«168489_j28200755265763_1_alg».proof.Proof.Gen.ReferenceIdeal
import proofs.«168489_j28200755265763_1_alg».proof.Proof.Gen.Pre_finite_inputs
import proofs.«168489_j28200755265763_1_alg».proof.Proof.RefRun
import proofs.«168489_j28200755265763_1_alg».proof.Proof.Spec
import proofs.«168489_j28200755265763_1_alg».proof.Proof.Region0
import proofs.«168489_j28200755265763_1_alg».proof.Proof.Region1
import proofs.«168489_j28200755265763_1_alg».proof.Proof.Region2
import proofs.«168489_j28200755265763_1_alg».proof.Proof.HostGlue
import proofs.«168489_j28200755265763_1_alg».proof.Proof.PassThrough
import proofs.«168489_j28200755265763_1_alg».proof.Proof.ValueRun
import proofs.«168489_j28200755265763_1_alg».proof.Proof.RefNet
import Idealize.ShloMosaic.Adequacy
import Idealize.ShloMosaic.Init

set_option maxRecDepth 16384

noncomputable section

open Idealize.ShloMosaic Idealize.ShloMosaic.TcCoe Idealize.ShloMosaic.ValueIdx Idealize.SL.Sem Cert.Spec

/-! ## The kernel program's result is the network -/

namespace Cert.KernelIdeal.Bridge
open Cert.KernelIdeal Cert.KernelIdeal.Gen
variable (m : (ℓ : Loc nD τ sig) → Buf (Elt Ideal) ℓ) (ρ : Dev nD → PrngReg)

/-- What the kernel program leaves in its result array: the third region's array over the second's over the
    first's, each region reading the weight signs, scale, bias and slope the host operations before it prepared
    from the arguments; substituted into one another they are the three layers of `net`. -/
theorem kernel_net (c : Dev nD) :
    (W12 m ρ c (Proc.devRef .tc main_v37) : S32768x512.Idx → EReal)
      = arr (net (mat (m ((c.tc : Thread nD τ).loc main_arg0) : S32768x512.Idx → EReal))
          (mat (m ((c.tc : Thread nD τ).loc main_arg1) : S2048x512.Idx → EReal)) (vec (m ((c.tc : Thread nD τ).loc main_arg2) : S2048.Idx → EReal))
          (mat (m ((c.tc : Thread nD τ).loc main_arg3) : S2048x2048.Idx → EReal)) (vec (m ((c.tc : Thread nD τ).loc main_arg4) : S2048.Idx → EReal))
          (mat (m ((c.tc : Thread nD τ).loc main_arg5) : S512x2048.Idx → EReal)) (vec (m ((c.tc : Thread nD τ).loc main_arg6) : S512.Idx → EReal))
          ((m ((c.tc : Thread nD τ).loc main_arg7) : S1.Idx → EReal) (ix1 0))) := by
  rw [out_eq, region2_array, V11_x, region1_array, V7_x, region0_array]
  rw [V3_x, V3_s, V3_a, V3_b, V3_p, V7_s, V7_a, V7_b, V7_p, V11_s, V11_a, V11_b]
  rfl

end Cert.KernelIdeal.Bridge

/-! ## The claims -/

namespace Cert.Proof

open Cert.KernelIdeal.Bridge Cert.ReferenceIdeal.Bridge

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs, from memories that agree on the arguments, end with the network of the arguments in
    their result arrays. -/
theorem algebraic : Cert.algebraic_KernelIdeal_ReferenceIdeal := by
  intro m ρ m' ρ' _ hagree
  refine ⟨fun c => Cert.KernelIdeal.Gen.W12 m ρ c (Proc.devRef .tc Cert.KernelIdeal.main_v37), value_run m ρ, ?_⟩
  refine (θ_run Cert.ReferenceIdeal.defs _ _).mono (fun _ h c => ⟨(h c).1.trans ?_, (h c).2⟩)
    (Cert.ReferenceIdeal.Value.run (F := Ideal) m' ρ')
  refine (ref_net m' c).trans ((kernel_net m ρ c).trans ?_).symm
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
